-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_arg7 : FVec F S128x128 .f32) (main_arg8 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S128x128 .f32) (main_arg6 : FVec F S128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩

abbrev nBuf : Space → Nat
  | .hbm => 81
  | .vmem => 34
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S_, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S800000x1, .i32⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S50000x1, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S_, .i32⟩
  | .hbm, ⟨37, _⟩ => ⟨S800000, .i32⟩
  | .hbm, ⟨38, _⟩ => ⟨S800000, .i1⟩
  | .hbm, ⟨39, _⟩ => ⟨S_, .i32⟩
  | .hbm, ⟨40, _⟩ => ⟨S800000, .i32⟩
  | .hbm, ⟨41, _⟩ => ⟨S800000, .i32⟩
  | .hbm, ⟨42, _⟩ => ⟨S800000, .i32⟩
  | .hbm, ⟨43, _⟩ => ⟨S800000x1, .i32⟩
  | .hbm, ⟨44, _⟩ => ⟨S800000x128, .f32⟩
  | .hbm, ⟨45, _⟩ => ⟨S_, .f32⟩
  | .hbm, ⟨46, _⟩ => ⟨S50000x128, .f32⟩
  | .hbm, ⟨47, _⟩ => ⟨S800000x1, .i32⟩
  | .hbm, ⟨48, _⟩ => ⟨S50000x128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S_, .i32⟩
  | .hbm, ⟨67, _⟩ => ⟨S800000, .i32⟩
  | .hbm, ⟨68, _⟩ => ⟨S800000, .i1⟩
  | .hbm, ⟨69, _⟩ => ⟨S_, .i32⟩
  | .hbm, ⟨70, _⟩ => ⟨S800000, .i32⟩
  | .hbm, ⟨71, _⟩ => ⟨S800000, .i32⟩
  | .hbm, ⟨72, _⟩ => ⟨S800000, .i32⟩
  | .hbm, ⟨73, _⟩ => ⟨S800000x1, .i32⟩
  | .hbm, ⟨74, _⟩ => ⟨S800000x128, .f32⟩
  | .hbm, ⟨75, _⟩ => ⟨S_, .f32⟩
  | .hbm, ⟨76, _⟩ => ⟨S50000x128, .f32⟩
  | .hbm, ⟨77, _⟩ => ⟨S800000x1, .i32⟩
  | .hbm, ⟨78, _⟩ => ⟨S50000x128, .f32⟩
  | .hbm, ⟨79, _⟩ => ⟨S1x128, .f32⟩
  | .hbm, ⟨80, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S2000x1, .f32⟩
  | .local _ .vmem, ⟨13, _⟩ => ⟨S2000x1, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S128x128, .f32⟩
  | .local _ .vmem, ⟨21, _⟩ => ⟨S1x128, .f32⟩
  | .local _ .vmem, ⟨22, _⟩ => ⟨S2000x1, .f32⟩
  | .local _ .vmem, ⟨23, _⟩ => ⟨S2000x1, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x1, .f32⟩
  | .local _ .vmem, ⟨29, _⟩ => ⟨S2000x1, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_5 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_c : Ref sig .tc := ⟨.hbm, 36, rfl⟩
abbrev main_v16 : Ref sig .tc := ⟨.hbm, 37, rfl⟩
abbrev main_v17 : Ref sig .tc := ⟨.hbm, 38, rfl⟩
abbrev main_c_6 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_7 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_v28 : Ref sig .tc := ⟨.hbm, 52, rfl⟩
abbrev main_v29 : Ref sig .tc := ⟨.hbm, 53, rfl⟩
abbrev main_c_9 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_10 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_c_12 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg1_1 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg4_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc2_sem5_0 : DmaSem sig := 24
abbrev cc2_sem5_1 : DmaSem sig := 25
abbrev cc3_sem0_0 : DmaSem sig := 26
abbrev cc3_sem0_1 : DmaSem sig := 27
abbrev cc3_sem1_0 : DmaSem sig := 28
abbrev cc3_sem1_1 : DmaSem sig := 29
abbrev cc3_sem2_0 : DmaSem sig := 30
abbrev cc3_sem3_0 : DmaSem sig := 31
abbrev cc3_sem4_0 : DmaSem sig := 32
abbrev cc3_sem4_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S50000x1.size a
  hwx2_4 : ∀ i : grid2.Coords, EltTy.bits .f32 = 32 ∨ (Rect.block (s := S50000x1) S2000x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v25) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v11) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v27) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v38) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v11) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v39) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v49) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg7) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v50) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v51) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩

abbrev nBuf : Space → Nat
  | .hbm => 159
  | .vmem => 0
  | .smem => 0
  | _ => 0

abbrev hbmTy0_0 (i : Nat) : BufTy := match i % 128 with
  | 0 => ⟨S50000x128, .f32⟩
  | 1 => ⟨S800000, .i32⟩
  | 2 => ⟨S800000, .i32⟩
  | 3 => ⟨S128x128, .f32⟩
  | 4 => ⟨S128, .f32⟩
  | 5 => ⟨S128x128, .f32⟩
  | 6 => ⟨S128, .f32⟩
  | 7 => ⟨S128x128, .f32⟩
  | 8 => ⟨S128, .f32⟩
  | 9 => ⟨S_, .f32⟩
  | 10 => ⟨S800000, .f32⟩
  | 11 => ⟨S_, .f32⟩
  | 12 => ⟨S50000, .f32⟩
  | 13 => ⟨S800000x1, .i32⟩
  | 14 => ⟨S50000, .f32⟩
  | 15 => ⟨S_, .f32⟩
  | 16 => ⟨S_, .f32⟩
  | 17 => ⟨S50000, .f32⟩
  | 18 => ⟨S50000, .f32⟩
  | 19 => ⟨S_, .f32⟩
  | 20 => ⟨S50000, .f32⟩
  | 21 => ⟨S800000x1, .i32⟩
  | 22 => ⟨S50000, .f32⟩
  | 23 => ⟨S_, .f32⟩
  | 24 => ⟨S_, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x128, .f32⟩
  | 32 => ⟨S50000x128, .f32⟩
  | 33 => ⟨S_, .i32⟩
  | 34 => ⟨S800000, .i32⟩
  | 35 => ⟨S800000, .i1⟩
  | 36 => ⟨S_, .i32⟩
  | 37 => ⟨S800000, .i32⟩
  | 38 => ⟨S800000, .i32⟩
  | 39 => ⟨S800000, .i32⟩
  | 40 => ⟨S800000x1, .i32⟩
  | 41 => ⟨S800000x128, .f32⟩
  | 42 => ⟨S_, .f32⟩
  | 43 => ⟨S50000x128, .f32⟩
  | 44 => ⟨S800000x1, .i32⟩
  | 45 => ⟨S50000x128, .f32⟩
  | 46 => ⟨S_, .f32⟩
  | 47 => ⟨S50000, .f32⟩
  | 48 => ⟨S50000, .f32⟩
  | 49 => ⟨S50000x1, .f32⟩
  | 50 => ⟨S50000x128, .f32⟩
  | 51 => ⟨S50000x128, .f32⟩
  | 52 => ⟨S50000x128, .f32⟩
  | 53 => ⟨S1x128, .f32⟩
  | 54 => ⟨S50000x128, .f32⟩
  | 55 => ⟨S50000x128, .f32⟩
  | 56 => ⟨S_, .f32⟩
  | 57 => ⟨S50000x128, .f32⟩
  | 58 => ⟨S50000x128, .f32⟩
  | 59 => ⟨S_, .f32⟩
  | 60 => ⟨S800000, .f32⟩
  | 61 => ⟨S_, .f32⟩
  | 62 => ⟨S50000, .f32⟩
  | 63 => ⟨S800000x1, .i32⟩
  | 64 => ⟨S50000, .f32⟩
  | 65 => ⟨S_, .f32⟩
  | 66 => ⟨S_, .f32⟩
  | 67 => ⟨S50000, .f32⟩
  | 68 => ⟨S50000, .f32⟩
  | 69 => ⟨S_, .f32⟩
  | 70 => ⟨S50000, .f32⟩
  | 71 => ⟨S800000x1, .i32⟩
  | 72 => ⟨S50000, .f32⟩
  | 73 => ⟨S_, .f32⟩
  | 74 => ⟨S_, .f32⟩
  | 75 => ⟨S50000, .f32⟩
  | 76 => ⟨S50000, .f32⟩
  | 77 => ⟨S_, .f32⟩
  | 78 => ⟨S50000, .f32⟩
  | 79 => ⟨S50000, .f32⟩
  | 80 => ⟨S50000x1, .f32⟩
  | 81 => ⟨S50000x128, .f32⟩
  | 82 => ⟨S50000x128, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x128, .f32⟩
  | 92 => ⟨S_, .f32⟩
  | 93 => ⟨S50000x128, .f32⟩
  | 94 => ⟨S800000x1, .i32⟩
  | 95 => ⟨S50000x128, .f32⟩
  | 96 => ⟨S_, .f32⟩
  | 97 => ⟨S50000, .f32⟩
  | 98 => ⟨S50000, .f32⟩
  | 99 => ⟨S50000x1, .f32⟩
  | 100 => ⟨S50000x128, .f32⟩
  | 101 => ⟨S50000x128, .f32⟩
  | 102 => ⟨S50000x128, .f32⟩
  | 103 => ⟨S1x128, .f32⟩
  | 104 => ⟨S50000x128, .f32⟩
  | 105 => ⟨S50000x128, .f32⟩
  | 106 => ⟨S_, .f32⟩
  | 107 => ⟨S50000x128, .f32⟩
  | 108 => ⟨S50000x128, .f32⟩
  | 109 => ⟨S_, .f32⟩
  | 110 => ⟨S800000, .f32⟩
  | 111 => ⟨S_, .f32⟩
  | 112 => ⟨S50000, .f32⟩
  | 113 => ⟨S800000x1, .i32⟩
  | 114 => ⟨S50000, .f32⟩
  | 115 => ⟨S_, .f32⟩
  | 116 => ⟨S_, .f32⟩
  | 117 => ⟨S50000, .f32⟩
  | 118 => ⟨S50000, .f32⟩
  | 119 => ⟨S_, .f32⟩
  | 120 => ⟨S50000, .f32⟩
  | 121 => ⟨S800000x1, .i32⟩
  | 122 => ⟨S50000, .f32⟩
  | 123 => ⟨S_, .f32⟩
  | 124 => ⟨S_, .f32⟩
  | 125 => ⟨S50000, .f32⟩
  | 126 => ⟨S50000, .f32⟩
  | 127 => ⟨S_, .f32⟩
  | _ => ⟨S50000x128, .f32⟩

abbrev hbmTy0_1 (i : Nat) : BufTy := match i % 128 with
  | 0 => ⟨S50000, .f32⟩
  | 1 => ⟨S50000, .f32⟩
  | 2 => ⟨S50000x1, .f32⟩
  | 3 => ⟨S50000x128, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x128, .f32⟩
  | 14 => ⟨S_, .f32⟩
  | 15 => ⟨S50000x128, .f32⟩
  | 16 => ⟨S800000x1, .i32⟩
  | 17 => ⟨S50000x128, .f32⟩
  | 18 => ⟨S_, .f32⟩
  | 19 => ⟨S50000, .f32⟩
  | 20 => ⟨S50000, .f32⟩
  | 21 => ⟨S50000x1, .f32⟩
  | 22 => ⟨S50000x128, .f32⟩
  | 23 => ⟨S50000x128, .f32⟩
  | 24 => ⟨S50000x128, .f32⟩
  | 25 => ⟨S1x128, .f32⟩
  | 26 => ⟨S50000x128, .f32⟩
  | 27 => ⟨S50000x128, .f32⟩
  | 28 => ⟨S_, .f32⟩
  | 29 => ⟨S50000x128, .f32⟩
  | 30 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_call0_v0 : Ref sig .tc := ⟨.hbm, 16, rfl⟩
abbrev main_call0_v1 : Ref sig .tc := ⟨.hbm, 17, rfl⟩
abbrev main_v4 : Ref sig .tc := ⟨.hbm, 18, rfl⟩
abbrev main_cst_2 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_3 : Ref sig .tc := ⟨.hbm, 23, rfl⟩
abbrev main_call1_v0 : Ref sig .tc := ⟨.hbm, 24, rfl⟩
abbrev main_call1_v1 : Ref sig .tc := ⟨.hbm, 25, rfl⟩
abbrev main_v8 : Ref sig .tc := ⟨.hbm, 26, rfl⟩
abbrev main_cst_4 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_c : Ref sig .tc := ⟨.hbm, 33, rfl⟩
abbrev main_v14 : Ref sig .tc := ⟨.hbm, 34, rfl⟩
abbrev main_v15 : Ref sig .tc := ⟨.hbm, 35, rfl⟩
abbrev main_c_5 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_6 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_7 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_call2_cst : Ref sig .tc := ⟨.hbm, 56, rfl⟩
abbrev main_call2_v0 : Ref sig .tc := ⟨.hbm, 57, rfl⟩
abbrev main_v33 : Ref sig .tc := ⟨.hbm, 58, rfl⟩
abbrev main_cst_8 : Ref sig .tc := ⟨.hbm, 59, rfl⟩
abbrev main_v34 : Ref sig .tc := ⟨.hbm, 60, rfl⟩
abbrev main_cst_9 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_10 : Ref sig .tc := ⟨.hbm, 65, rfl⟩
abbrev main_call3_v0 : Ref sig .tc := ⟨.hbm, 66, rfl⟩
abbrev main_call3_v1 : Ref sig .tc := ⟨.hbm, 67, rfl⟩
abbrev main_v38 : Ref sig .tc := ⟨.hbm, 68, rfl⟩
abbrev main_cst_11 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_cst_12 : Ref sig .tc := ⟨.hbm, 73, rfl⟩
abbrev main_call4_v0 : Ref sig .tc := ⟨.hbm, 74, rfl⟩
abbrev main_call4_v1 : Ref sig .tc := ⟨.hbm, 75, rfl⟩
abbrev main_v42 : Ref sig .tc := ⟨.hbm, 76, rfl⟩
abbrev main_cst_13 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_c_14 : Ref sig .tc := ⟨.hbm, 83, rfl⟩
abbrev main_v48 : Ref sig .tc := ⟨.hbm, 84, rfl⟩
abbrev main_v49 : Ref sig .tc := ⟨.hbm, 85, rfl⟩
abbrev main_c_15 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_16 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_cst_17 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_call5_cst : Ref sig .tc := ⟨.hbm, 106, rfl⟩
abbrev main_call5_v0 : Ref sig .tc := ⟨.hbm, 107, rfl⟩
abbrev main_v67 : Ref sig .tc := ⟨.hbm, 108, rfl⟩
abbrev main_cst_18 : Ref sig .tc := ⟨.hbm, 109, rfl⟩
abbrev main_v68 : Ref sig .tc := ⟨.hbm, 110, rfl⟩
abbrev main_cst_19 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_cst_20 : Ref sig .tc := ⟨.hbm, 115, rfl⟩
abbrev main_call6_v0 : Ref sig .tc := ⟨.hbm, 116, rfl⟩
abbrev main_call6_v1 : Ref sig .tc := ⟨.hbm, 117, rfl⟩
abbrev main_v72 : Ref sig .tc := ⟨.hbm, 118, rfl⟩
abbrev main_cst_21 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_cst_22 : Ref sig .tc := ⟨.hbm, 123, rfl⟩
abbrev main_call7_v0 : Ref sig .tc := ⟨.hbm, 124, rfl⟩
abbrev main_call7_v1 : Ref sig .tc := ⟨.hbm, 125, rfl⟩
abbrev main_v76 : Ref sig .tc := ⟨.hbm, 126, rfl⟩
abbrev main_cst_23 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_c_24 : Ref sig .tc := ⟨.hbm, 133, rfl⟩
abbrev main_v82 : Ref sig .tc := ⟨.hbm, 134, rfl⟩
abbrev main_v83 : Ref sig .tc := ⟨.hbm, 135, rfl⟩
abbrev main_c_25 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_cst_26 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_cst_27 : Ref sig .tc := ⟨.hbm, 146, rfl⟩
abbrev main_v92 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_v97 : Ref sig .tc := ⟨.hbm, 152, rfl⟩
abbrev main_v98 : Ref sig .tc := ⟨.hbm, 153, rfl⟩
abbrev main_v99 : Ref sig .tc := ⟨.hbm, 154, rfl⟩
abbrev main_v100 : Ref sig .tc := ⟨.hbm, 155, rfl⟩
abbrev main_call8_cst : Ref sig .tc := ⟨.hbm, 156, rfl⟩
abbrev main_call8_v0 : Ref sig .tc := ⟨.hbm, 157, rfl⟩
abbrev main_v101 : Ref sig .tc := ⟨.hbm, 158, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Rows.lean ====
/-
  The two whole-array functions a graph-convolution layer is made of, index by index over the extended reals.

  * `scaleRows x d`: every row `r` of the node-feature matrix `x` multiplied by the row's own scalar `d r` (a column
    `[n, 1]`): the degree normalisation `x · deg^(-1/2)`.
  * `denseRelu a d w b`: the rows of `a` scaled by `d`, multiplied by the weight matrix `w` (entry `(r, j)` is the sum
    over the feature axis `k` of `(a r k · d r) · w k j`), the bias row `b` added, and the result clamped below at zero.

  Both are stated over literal shapes; the zero of the clamp is kept as the float word both programs print.
-/
import Idealize.ShloMosaic.PureOps.Ideal
import Idealize.ShloMosaic.Lib.ValueIdx

noncomputable section

namespace Cert.Gcn

open Idealize.ShloMosaic Idealize.ShloMosaic.ValueIdx

abbrev SNxD : Shape := ⟨2, ![50000, 128]⟩
abbrev SNx1 : Shape := ⟨2, ![50000, 1]⟩
abbrev SDxD : Shape := ⟨2, ![128, 128]⟩
abbrev S1xD : Shape := ⟨2, ![1, 128]⟩

/-- The node (row) of an index of the feature matrix. -/
abbrev node (i : SNxD.Idx) : Fin 50000 := ⟨(i 0).val, (i 0).isLt⟩
/-- The feature (column) of an index of the feature matrix. -/
abbrev feat (i : SNxD.Idx) : Fin 128 := ⟨(i 1).val, (i 1).isLt⟩

/-- Row `r` of `x` times the scalar `d r`. -/
def scaleRows (x : FVec Ideal SNxD .f32) (d : FVec Ideal SNx1 .f32) : FVec Ideal SNxD .f32 :=
  fun i => x i * d (ix2 (node i) (0 : Fin 1))

/-- `max ((a · diag d) · w + b, 0)`, entry by entry: the sum runs over the feature axis. -/
def denseRelu (a : FVec Ideal SNxD .f32) (d : FVec Ideal SNx1 .f32) (w : FVec Ideal SDxD .f32) (b : FVec Ideal S1xD .f32) :
    FVec Ideal SNxD .f32 :=
  fun i => max ((∑ k : Fin 128, (a (ix2 (node i) k) * d (ix2 (node i) (0 : Fin 1))) * w (ix2 k (feat i)))
    + b (ix2 (0 : Fin 1) (feat i))) (Ideal.ofBits .f32 0x00000000#32)

theorem scaleRows_apply (x : FVec Ideal SNxD .f32) (d : FVec Ideal SNx1 .f32) (i : SNxD.Idx) :
    scaleRows x d i = x i * d (ix2 (node i) (0 : Fin 1)) := rfl

theorem denseRelu_apply (a : FVec Ideal SNxD .f32) (d : FVec Ideal SNx1 .f32) (w : FVec Ideal SDxD .f32) (b : FVec Ideal S1xD .f32)
    (i : SNxD.Idx) :
    denseRelu a d w b i = max ((∑ k : Fin 128, (a (ix2 (node i) k) * d (ix2 (node i) (0 : Fin 1))) * w (ix2 k (feat i)))
      + b (ix2 (0 : Fin 1) (feat i))) (Ideal.ofBits .f32 0x00000000#32) := rfl

end Cert.Gcn

end
-- ==== Proof.KerPay.lean ====
/-
  The kernels' stored values at an index, over the extended reals. Block row `r`, feature `j`:
  the scaling kernel stores `x r j · d r`; the final layer's kernel stores
  `max (∑ₖ (x r k · d r) · w k j + b j, 0)` (the casts to bf16 are the identity on the extended reals, the matrix unit's
  product into a zero accumulator is the plain sum); a middle layer's kernel stores that times the next layer's `d' r`.
-/
import proofs.«132122_j23003844838151_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- A column `[a, 1]` broadcast to `[a, b]` reads, at `(p, c)`, the column's entry in row `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! The matrix product's operand indices: at output index `i` and contraction index `q` the left operand is read at
(row of `i`, `q`) and the right operand at (`q`, column of `i`). One lemma per operand axis. -/

private theorem lhs_rows_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
private theorem lhs_rows_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
private theorem rhs_rows_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
private theorem rhs_rows_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The matrix unit's product into the zero accumulator, at row `r` and column `j`: the plain sum over the feature
axis `k` of the left operand at `(r, k)` times the right operand at `(k, j)`. -/
private theorem matmul_rows_apply {φ₁ φ₂ : FTy} (a : FVec Ideal S2000x128 φ₁) (w : FVec Ideal S128x128 φ₂) (r : Fin 2000) (j : Fin 128) :
    matmul dot_S2000x128_S128x128_S2000x128_1_0_0_1_n_n none a w (constant S2000x128 .f32 0x00000000#32) (ix2 r j)
      = ∑ k : Fin 128, a (ix2 r k) * w (ix2 k j) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 r j) ((contrEquiv1 dot_S2000x128_S128x128_S2000x128_1_0_0_1_n_n 128 rfl rfl).symm k) = ix2 r k := funext fun a => Fin.ext (by
    match a with
    | ⟨0, _⟩ => exact lhs_rows_0 _ _
    | ⟨1, _⟩ => exact (lhs_rows_1 _ _).trans hk)
  have er : dot_S2000x128_S128x128_S2000x128_1_0_0_1_n_n.rhsIdx (ix2 r j) ((contrEquiv1 dot_S2000x128_S128x128_S2000x128_1_0_0_1_n_n 128 rfl rfl).symm k) = ix2 k j := funext fun a => Fin.ext (by
    match a with
    | ⟨0, _⟩ => exact (rhs_rows_0 _ _).trans hk
    | ⟨1, _⟩ => exact rhs_rows_1 _ _)
  rw [el, er]

/-- The scaling kernel's stored value: the row's entry times the row's scalar. -/
theorem pay0_apply (x0 : Vec Ideal S2000x128 .f32) (x1 : Vec Ideal S2000x1 .f32) (r : Fin 2000) (j : Fin 128) :
    k0_pay1 (F := Ideal) x0 x1 (ix2 r j) = x0 (ix2 r j) * x1 (ix2 r (0 : Fin 1)) := by
  unfold k0_pay1
  rw [mulf_apply, shapeCast_self, broadcastTo_a1_ab_apply]

/-- The final layer's stored value. -/
theorem pay3_apply (x0 : Vec Ideal S2000x128 .f32) (x1 : Vec Ideal S2000x1 .f32) (x2 : Vec Ideal S128x128 .f32) (x3 : Vec Ideal S1x128 .f32)
    (r : Fin 2000) (j : Fin 128) :
    k3_pay1 (F := Ideal) x0 x1 x2 x3 (ix2 r j) = max ((∑ k : Fin 128, (x0 (ix2 r k) * x1 (ix2 r (0 : Fin 1))) * x2 (ix2 k j)) + x3 (ix2 (0 : Fin 1) j)) (Ideal.ofBits .f32 0x00000000#32) := by
  unfold k3_pay1
  -- outermost first: the clamp, the bias row added, the product as a sum over the feature axis
  rw [maximumf_apply, addf_apply, broadcast_apply, Ideal.ofBits_def, matmul_rows_apply, broadcastTo_1b_ab_apply,
    shapeCast_self x0, shapeCast_self x1, shapeCast_self x3]
  refine congrArg (fun t => max (t + x3 (ix2 (0 : Fin 1) j)) (Ideal.ofBits .f32 0x00000000#32)) ?_
  -- term by term: the left factor is the scaled row entry (the narrowing casts are the identity)
  refine Finset.sum_congr rfl fun k _ => ?_
  rw [truncf_apply, truncf_apply, mulf_apply, broadcastTo_a1_ab_apply]

/-- A middle layer's stored value (first middle layer). -/
theorem pay1_apply (x0 : Vec Ideal S2000x128 .f32) (x1 : Vec Ideal S2000x1 .f32) (x2 : Vec Ideal S128x128 .f32) (x3 : Vec Ideal S1x128 .f32)
    (x4 : Vec Ideal S2000x1 .f32) (r : Fin 2000) (j : Fin 128) :
    k1_pay1 (F := Ideal) x0 x1 x2 x3 x4 (ix2 r j) = max ((∑ k : Fin 128, (x0 (ix2 r k) * x1 (ix2 r (0 : Fin 1))) * x2 (ix2 k j)) + x3 (ix2 (0 : Fin 1) j)) (Ideal.ofBits .f32 0x00000000#32) * x4 (ix2 r (0 : Fin 1)) := by
  -- the stored value is the final layer's value times the next layer's scalar column, broadcast along the row
  have h : k1_pay1 (F := Ideal) x0 x1 x2 x3 x4
      = mulf (k3_pay1 (F := Ideal) x0 x1 x2 x3)
          (broadcastTo S2000x128 (shapeCast S2000x1 x4 Facts₀.shapeCasts_S2000x1_S2000x1) Facts₀.broadcasts_S2000x1_S2000x128) := rfl
  rw [h, mulf_apply, pay3_apply, shapeCast_self x4, broadcastTo_a1_ab_apply]

/-- A middle layer's stored value (second middle layer). -/
theorem pay2_apply (x0 : Vec Ideal S2000x128 .f32) (x1 : Vec Ideal S2000x1 .f32) (x2 : Vec Ideal S128x128 .f32) (x3 : Vec Ideal S1x128 .f32)
    (x4 : Vec Ideal S2000x1 .f32) (r : Fin 2000) (j : Fin 128) :
    k2_pay1 (F := Ideal) x0 x1 x2 x3 x4 (ix2 r j) = max ((∑ k : Fin 128, (x0 (ix2 r k) * x1 (ix2 r (0 : Fin 1))) * x2 (ix2 k j)) + x3 (ix2 (0 : Fin 1) j)) (Ideal.ofBits .f32 0x00000000#32) * x4 (ix2 r (0 : Fin 1)) := by
  -- the stored value is the final layer's value times the next layer's scalar column, broadcast along the row
  have h : k2_pay1 (F := Ideal) x0 x1 x2 x3 x4
      = mulf (k3_pay1 (F := Ideal) x0 x1 x2 x3)
          (broadcastTo S2000x128 (shapeCast S2000x1 x4 Facts₀.shapeCasts_S2000x1_S2000x1) Facts₀.broadcasts_S2000x1_S2000x128) := rfl
  rw [h, mulf_apply, pay3_apply, shapeCast_self x4, broadcastTo_a1_ab_apply]

end Cert.KernelIdeal.Hand

end
-- ==== Proof.KerReg0.lean ====
/-
  Region 0 (the scaling kernel), from blocks to the array: grid point `t` writes back rows `2000 t … 2000 t + 1999` of
  `scaleRows x d`, and the 25 blocks cover the 50000 rows, so the output array ends at `scaleRows` of the region's entry arrays.
-/
import proofs.«132122_j23003844838151_1_alg».proof.Proof.Gen.KernelIdeal.Frame
import proofs.«132122_j23003844838151_1_alg».proof.Proof.Rows
import proofs.«132122_j23003844838151_1_alg».proof.Proof.KerPay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

-- the TensorCore's buffer contents when the region is entered
variable (V : (c : Dev nD) → (b : Ref sig .tc) → Buf (Elt Ideal) ((c : Thread nD τ).loc b))

/-- A block whose offsets are all zero starts at the origin. -/
private theorem origin_zero : (![0, 0] : Fin 2 → Nat) = fun _ => 0 := funext fun a => by fin_cases a <;> rfl

/-- The index maps of region 0 over its 25 grid points: every window's row-block index is the point itself, and its
    column-block index is 0. -/
private theorem blockIdx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- One stored entry: if the feature block's entry `(r, j)` is the array's entry `i`, and the scalar block's entry
    `(r, 0)` is the scalar of `i`'s row, the kernel's stored value at `(r, j)` is `scaleRows` at `i`. -/
private theorem stored0 (x0 : Vec Ideal S2000x128 .f32) (x1 : Vec Ideal S2000x1 .f32)
    (x : FVec Ideal SNxD .f32) (d : FVec Ideal SNx1 .f32) (r : Fin 2000) (j : Fin 128) (i : SNxD.Idx)
    (hx : x0 (ix2 r j) = x i) (hd : x1 (ix2 r (0 : Fin 1)) = d (ix2 (node i) (0 : Fin 1))) :
    k0_pay1 (F := Ideal) x0 x1 (ix2 r j) = scaleRows x d i := by
  rw [pay0_apply, scaleRows_apply, hx, hd]

/-- What grid point `t` writes back is block `t` (rows `2000 t … 2000 t + 1999`) of `scaleRows` of the entry arrays. -/
private theorem flushed0 (c : Dev nD) (t : Fin cfg0.N) :
    (dat0 (F := Ideal) V c).flushed 2 t
      = ((cfg0.win 2).blk t).view.read (Elt Ideal) (scaleRows (V c main_arg0) (V c main_v11)) := by
  show (cfg0.win 2).cut (grid0.coords t) ((dat0 V c).after 2 t) = _
  rw [after0_2]
  unfold out0_2
  rw [View.canon_unit_zero origin_zero]
  simp only [View.ld_unit_zero (S := S2000x128) origin_zero, View.ld_unit_zero (S := S2000x1) origin_zero]
  obtain ⟨e00, e01, e10, e11, e20, e21⟩ := blockIdx0 t
  funext y
  obtain ⟨r, j, rfl⟩ : ∃ (r : Fin 2000) (j : Fin 128), y = ix2 r j := ⟨y 0, y 1, eq_ix2 y⟩
  show k0_pay1 (F := Ideal) (iblk0 V c 0 t) (iblk0 V c 1 t) (ix2 r j)
    = scaleRows (V c main_arg0) (V c main_v11) (((cfg0.win 2).blk t).view.emb (ix2 r j))
  refine stored0 (iblk0 V c 0 t) (iblk0 V c 1 t) (V c main_arg0) (V c main_v11) r j
    (((cfg0.win 2).blk t).view.emb (ix2 r j)) ?_ ?_
  · -- the feature block moves with the output block
    show V c main_arg0 (((cfg0.win 0).blk t).view.emb (ix2 r j)) = V c main_arg0 (((cfg0.win 2).blk t).view.emb (ix2 r j))
    refine congrArg (V c main_arg0) ?_
    funext a; apply Fin.ext
    match a with
    | ⟨0, _⟩ => show win0_0.index t (0 : Fin 2) * 2000 + 1 * r.val = win0_2.index t (0 : Fin 2) * 2000 + 1 * r.val; omega
    | ⟨1, _⟩ => show win0_0.index t (1 : Fin 2) * 128 + 1 * j.val = win0_2.index t (1 : Fin 2) * 128 + 1 * j.val; omega
  · -- the scalar block's row is the output block's row
    show V c main_v11 (((cfg0.win 1).blk t).view.emb (ix2 r (0 : Fin 1)))
      = V c main_v11 (ix2 (node (((cfg0.win 2).blk t).view.emb (ix2 r j))) (0 : Fin 1))
    refine congrArg (V c main_v11) ?_
    funext a; apply Fin.ext
    match a with
    | ⟨0, _⟩ => show win0_1.index t (0 : Fin 2) * 2000 + 1 * r.val = win0_2.index t (0 : Fin 2) * 2000 + 1 * r.val; omega
    | ⟨1, _⟩ => show win0_1.index t (1 : Fin 2) * 1 + 1 * 0 = 0; omega

/-- An index of the array is in point `t`'s block iff each coordinate is in the block's range on its axis. -/
private theorem mem_blk0 (t : Fin cfg0.N) (i : SNxD.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v15).slice (win0_2.rect t)).set ↔ _
  rw [View.set_slice_whole, Rect.mem_set_unit]
  exact Iff.rfl

/-- Row `n` of the array lies in the block of grid point `n / 2000`: the 25 blocks cover the 50000 rows. -/
private theorem cover0 (i : SNxD.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, e20, e21⟩ := blockIdx0 t
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- The output array after region 0: the feature matrix with every row scaled by its scalar. -/
theorem final0 (c : Dev nD) :
    (dat0 (F := Ideal) V c).arrAt 2 cfg0.N = scaleRows (V c main_arg0) (V c main_v11) := by
  exact (dat0 (F := Ideal) V c).arrAt_eq_of_cover 2 (scaleRows (V c main_arg0) (V c main_v11))
    (fun t _ => flushed0 V c t) cover0

end Cert.KernelIdeal.Hand

end
-- ==== Proof.KerReg1.lean ====
/-
  Region 1 (first middle layer), from blocks to the array: grid point `t` writes back rows `2000 t … 2000 t + 1999` of
  `scaleRows (denseRelu a d w b) d'`, and the 25 blocks cover the 50000 rows.
-/
import proofs.«132122_j23003844838151_1_alg».proof.Proof.Gen.KernelIdeal.Frame
import proofs.«132122_j23003844838151_1_alg».proof.Proof.Rows
import proofs.«132122_j23003844838151_1_alg».proof.Proof.KerPay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

-- the TensorCore's buffer contents when the region is entered
variable (V : (c : Dev nD) → (b : Ref sig .tc) → Buf (Elt Ideal) ((c : Thread nD τ).loc b))

/-- The offsets `(0, 0)` of an access to a whole buffer are the zero vector. -/
private theorem zeroOff : (![0, 0] : Fin 2 → Nat) = fun _ => 0 := funext fun a => by fin_cases a <;> rfl

/-- The windows' index maps over the 25 grid points: the row-block windows (features, the two scalings, the output) sit at
    block `(t, 0)`, the weight and the bias windows at block `(0, 0)`. -/
private theorem blockIndex : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0 :=
  (by decide +kernel : ∀ t : Fin grid1.N, _)

/-- The region's entry arrays, by their literal types. -/
private abbrev featArr (c : Dev nD) : FVec Ideal SNxD .f32 := V c main_v25
private abbrev degArr (c : Dev nD) : FVec Ideal SNx1 .f32 := V c main_v14
private abbrev wgtArr (c : Dev nD) : FVec Ideal SDxD .f32 := V c main_arg3
private abbrev biasArr (c : Dev nD) : FVec Ideal S1xD .f32 := V c main_v26
private abbrev nextArr (c : Dev nD) : FVec Ideal SNx1 .f32 := V c main_v11

/-- The input windows' blocks at grid point `t`, by their literal types. -/
private abbrev featBlk (c : Dev nD) (t : Fin cfg1.N) : Vec Ideal S2000x128 .f32 := iblk1 V c 0 t
private abbrev degBlk (c : Dev nD) (t : Fin cfg1.N) : Vec Ideal S2000x1 .f32 := iblk1 V c 1 t
private abbrev wgtBlk (c : Dev nD) (t : Fin cfg1.N) : Vec Ideal S128x128 .f32 := iblk1 V c 2 t
private abbrev biasBlk (c : Dev nD) (t : Fin cfg1.N) : Vec Ideal S1x128 .f32 := iblk1 V c 3 t
private abbrev nextBlk (c : Dev nD) (t : Fin cfg1.N) : Vec Ideal S2000x1 .f32 := iblk1 V c 4 t

/-- Row `r` of the feature block at point `t` is row `2000 t + r` of the feature array. -/
private theorem featBlk_apply (c : Dev nD) (t : Fin cfg1.N) (r : Fin 2000) (k : Fin 128) (R : Fin 50000)
    (hR : R.val = 2000 * t.val + r.val) :
    featBlk V c t (ix2 r k) = featArr V c (ix2 R k) := by
  obtain ⟨e0, e1, -⟩ := blockIndex t
  show V c main_v25 (((cfg1.win 0).blk t).view.emb (ix2 r k)) = V c main_v25 (ix2 R k)
  refine congrArg _ ?_
  funext a
  apply Fin.ext
  match a with
  | ⟨0, _⟩ => show win1_0.index t (0 : Fin 2) * 2000 + 1 * r.val = R.val; omega
  | ⟨1, _⟩ => show win1_0.index t (1 : Fin 2) * 128 + 1 * k.val = k.val; omega

/-- Row `r` of a scaling block at point `t` is row `2000 t + r` of the scaling column. -/
private theorem degBlk_apply (c : Dev nD) (t : Fin cfg1.N) (r : Fin 2000) (R : Fin 50000)
    (hR : R.val = 2000 * t.val + r.val) :
    degBlk V c t (ix2 r (0 : Fin 1)) = degArr V c (ix2 R (0 : Fin 1)) := by
  obtain ⟨-, -, e0, e1, -⟩ := blockIndex t
  show V c main_v14 (((cfg1.win 1).blk t).view.emb (ix2 r (0 : Fin 1))) = V c main_v14 (ix2 R (0 : Fin 1))
  refine congrArg _ ?_
  funext a
  apply Fin.ext
  match a with
  | ⟨0, _⟩ => show win1_1.index t (0 : Fin 2) * 2000 + 1 * r.val = R.val; omega
  | ⟨1, _⟩ => show win1_1.index t (1 : Fin 2) * 1 + 1 * (0 : Fin 1).val = (0 : Fin 1).val; omega

/-- The weight block at every point is the weight matrix. -/
private theorem wgtBlk_apply (c : Dev nD) (t : Fin cfg1.N) (k j : Fin 128) :
    wgtBlk V c t (ix2 k j) = wgtArr V c (ix2 k j) := by
  obtain ⟨-, -, -, -, e0, e1, -⟩ := blockIndex t
  show V c main_arg3 (((cfg1.win 2).blk t).view.emb (ix2 k j)) = V c main_arg3 (ix2 k j)
  refine congrArg _ ?_
  funext a
  apply Fin.ext
  match a with
  | ⟨0, _⟩ => show win1_2.index t (0 : Fin 2) * 128 + 1 * k.val = k.val; omega
  | ⟨1, _⟩ => show win1_2.index t (1 : Fin 2) * 128 + 1 * j.val = j.val; omega

/-- The bias block at every point is the bias row. -/
private theorem biasBlk_apply (c : Dev nD) (t : Fin cfg1.N) (j : Fin 128) :
    biasBlk V c t (ix2 (0 : Fin 1) j) = biasArr V c (ix2 (0 : Fin 1) j) := by
  obtain ⟨-, -, -, -, -, -, e0, e1, -⟩ := blockIndex t
  show V c main_v26 (((cfg1.win 3).blk t).view.emb (ix2 (0 : Fin 1) j)) = V c main_v26 (ix2 (0 : Fin 1) j)
  refine congrArg _ ?_
  funext a
  apply Fin.ext
  match a with
  | ⟨0, _⟩ => show win1_3.index t (0 : Fin 2) * 1 + 1 * (0 : Fin 1).val = (0 : Fin 1).val; omega
  | ⟨1, _⟩ => show win1_3.index t (1 : Fin 2) * 128 + 1 * j.val = j.val; omega

/-- Row `r` of the next layer's scaling block at point `t` is row `2000 t + r` of that column. -/
private theorem nextBlk_apply (c : Dev nD) (t : Fin cfg1.N) (r : Fin 2000) (R : Fin 50000)
    (hR : R.val = 2000 * t.val + r.val) :
    nextBlk V c t (ix2 r (0 : Fin 1)) = nextArr V c (ix2 R (0 : Fin 1)) := by
  obtain ⟨-, -, -, -, -, -, -, -, e0, e1, -⟩ := blockIndex t
  show V c main_v11 (((cfg1.win 4).blk t).view.emb (ix2 r (0 : Fin 1))) = V c main_v11 (ix2 R (0 : Fin 1))
  refine congrArg _ ?_
  funext a
  apply Fin.ext
  match a with
  | ⟨0, _⟩ => show win1_4.index t (0 : Fin 2) * 2000 + 1 * r.val = R.val; omega
  | ⟨1, _⟩ => show win1_4.index t (1 : Fin 2) * 1 + 1 * (0 : Fin 1).val = (0 : Fin 1).val; omega

/-- The layer's value as one function of the entry arrays. -/
private abbrev layerOut (c : Dev nD) : FVec Ideal SNxD .f32 :=
  scaleRows (denseRelu (featArr V c) (degArr V c) (wgtArr V c) (biasArr V c)) (nextArr V c)

/-- Grid point `t` writes back rows `2000 t … 2000 t + 1999` of the layer's value. -/
private theorem flushed_eq (c : Dev nD) (t : Fin cfg1.N) :
    (dat1 (F := Ideal) V c).flushed 5 t = ((cfg1.win 5).blk t).view.read (Elt Ideal) (layerOut V c) := by
  show (cfg1.win 5).cut (grid1.coords t) ((dat1 (F := Ideal) V c).after 5 t) = _
  rw [after1_5]
  unfold out1_5
  rw [View.canon_unit_zero zeroOff]
  simp only [View.ld_unit_zero (S := S2000x128) zeroOff, View.ld_unit_zero (S := S2000x1) zeroOff,
    View.ld_unit_zero (S := S128x128) zeroOff, View.ld_unit_zero (S := S1x128) zeroOff]
  obtain ⟨-, -, -, -, -, -, -, -, -, -, e0, e1⟩ := blockIndex t
  have hN : t.val < 25 := Nat.lt_of_lt_of_eq t.isLt N_1
  refine funext fun (y : S2000x128.Idx) => ?_
  obtain ⟨r, j, rfl⟩ : ∃ (r : Fin 2000) (j : Fin 128), y = ix2 r j :=
    ⟨⟨(y 0).val, (y 0).isLt⟩, ⟨(y 1).val, (y 1).isLt⟩, by funext a; match a with | ⟨0, _⟩ => rfl | ⟨1, _⟩ => rfl⟩
  show k1_pay1 (F := Ideal) (featBlk V c t) (degBlk V c t) (wgtBlk V c t) (biasBlk V c t) (nextBlk V c t) (ix2 r j)
    = layerOut V c (((cfg1.win 5).blk t).view.emb (ix2 r j))
  refine (pay1_apply (featBlk V c t) (degBlk V c t) (wgtBlk V c t) (biasBlk V c t) (nextBlk V c t) r j).trans ?_
  -- the block's row `r` is the array's row `2000 t + r`
  obtain ⟨R, hR⟩ : ∃ R : Fin 50000, R.val = 2000 * t.val + r.val := ⟨⟨2000 * t.val + r.val, by omega⟩, rfl⟩
  have hemb : ((cfg1.win 5).blk t).view.emb (ix2 r j) = (ix2 R j : SNxD.Idx) := by
    funext a
    apply Fin.ext
    match a with
    | ⟨0, _⟩ => show win1_5.index t (0 : Fin 2) * 2000 + 1 * r.val = R.val; omega
    | ⟨1, _⟩ => show win1_5.index t (1 : Fin 2) * 128 + 1 * j.val = j.val; omega
  refine Eq.trans ?_ (congrArg (layerOut V c) hemb.symm)
  have hsum : (∑ k : Fin 128, (featBlk V c t (ix2 r k) * degBlk V c t (ix2 r (0 : Fin 1))) * wgtBlk V c t (ix2 k j))
      = ∑ k : Fin 128, (featArr V c (ix2 R k) * degArr V c (ix2 R (0 : Fin 1))) * wgtArr V c (ix2 k j) :=
    Finset.sum_congr rfl fun k _ => by
      rw [featBlk_apply V c t r k R hR, degBlk_apply V c t r R hR, wgtBlk_apply V c t k j]
  rw [hsum, biasBlk_apply V c t j, nextBlk_apply V c t r R hR]
  rfl

/-- An index of the output array is in point `t`'s block iff each coordinate is in the block's range on its axis. -/
private theorem mem_rows (t : Fin cfg1.N) (i : S50000x128.Idx) :
    i ∈ ((cfg1.win 5).blk t).view.set ↔ ∀ a : Fin 2, win1_5.index t a * S2000x128.size a ≤ (i a).val
      ∧ (i a).val < win1_5.index t a * S2000x128.size a + S2000x128.size a := by
  show i ∈ ((View.whole main_v27).slice (win1_5.rect t)).set ↔ _
  rw [View.set_slice_whole, Rect.mem_set_unit]
  exact Iff.rfl

/-- The 25 row blocks cover the 50000 rows: row `n` lies in the block of point `n / 2000`. -/
private theorem rows_cover (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, -, e0, e1⟩ := blockIndex t
  refine ⟨t, flush1_5 t, ?_⟩
  rw [mem_rows]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 128 ≤ (i 1).val ∧ (i 1).val < win1_5.index t (1 : Fin 2) * 128 + 128
    omega

/-- The output array after region 1. -/
theorem final1 (c : Dev nD) :
    (dat1 (F := Ideal) V c).arrAt 5 cfg1.N
      = scaleRows (denseRelu (V c main_v25) (V c main_v14) (V c main_arg3) (V c main_v26)) (V c main_v11) :=
  (dat1 (F := Ideal) V c).arrAt_eq_of_cover 5 (layerOut V c) (fun t _ => flushed_eq V c t) rows_cover

end Cert.KernelIdeal.Hand

end
-- ==== Proof.KerReg2.lean ====
/-
  Region 2 (second middle layer), from blocks to the array: grid point `t` writes back rows `2000 t … 2000 t + 1999` of
  `scaleRows (denseRelu a d w b) d'`, and the 25 blocks cover the 50000 rows.
-/
import proofs.«132122_j23003844838151_1_alg».proof.Proof.Gen.KernelIdeal.Frame
import proofs.«132122_j23003844838151_1_alg».proof.Proof.Rows
import proofs.«132122_j23003844838151_1_alg».proof.Proof.KerPay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

-- the TensorCore's buffer contents when the region is entered
variable (V : (c : Dev nD) → (b : Ref sig .tc) → Buf (Elt Ideal) ((c : Thread nD τ).loc b))

/-- The offsets `(0, 0)` of an access to a whole buffer are the zero vector. -/
private theorem zeroOff : (![0, 0] : Fin 2 → Nat) = fun _ => 0 := funext fun a => by fin_cases a <;> rfl

/-- The windows' index maps over the 25 grid points: the row-block windows (features, the two scalings, the output) sit at
    block `(t, 0)`, the weight and the bias windows at block `(0, 0)`. -/
private theorem blockIndex : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = t.val ∧ win2_5.index t (1 : Fin 2) = 0 :=
  (by decide +kernel : ∀ t : Fin grid2.N, _)

/-- The region's entry arrays, by their literal types. -/
private abbrev featArr (c : Dev nD) : FVec Ideal SNxD .f32 := V c main_v37
private abbrev degArr (c : Dev nD) : FVec Ideal SNx1 .f32 := V c main_v14
private abbrev wgtArr (c : Dev nD) : FVec Ideal SDxD .f32 := V c main_arg5
private abbrev biasArr (c : Dev nD) : FVec Ideal S1xD .f32 := V c main_v38
private abbrev nextArr (c : Dev nD) : FVec Ideal SNx1 .f32 := V c main_v11

/-- The input windows' blocks at grid point `t`, by their literal types. -/
private abbrev featBlk (c : Dev nD) (t : Fin cfg2.N) : Vec Ideal S2000x128 .f32 := iblk2 V c 0 t
private abbrev degBlk (c : Dev nD) (t : Fin cfg2.N) : Vec Ideal S2000x1 .f32 := iblk2 V c 1 t
private abbrev wgtBlk (c : Dev nD) (t : Fin cfg2.N) : Vec Ideal S128x128 .f32 := iblk2 V c 2 t
private abbrev biasBlk (c : Dev nD) (t : Fin cfg2.N) : Vec Ideal S1x128 .f32 := iblk2 V c 3 t
private abbrev nextBlk (c : Dev nD) (t : Fin cfg2.N) : Vec Ideal S2000x1 .f32 := iblk2 V c 4 t

/-- Row `r` of the feature block at point `t` is row `2000 t + r` of the feature array. -/
private theorem featBlk_apply (c : Dev nD) (t : Fin cfg2.N) (r : Fin 2000) (k : Fin 128) (R : Fin 50000)
    (hR : R.val = 2000 * t.val + r.val) :
    featBlk V c t (ix2 r k) = featArr V c (ix2 R k) := by
  obtain ⟨e0, e1, -⟩ := blockIndex t
  show V c main_v37 (((cfg2.win 0).blk t).view.emb (ix2 r k)) = V c main_v37 (ix2 R k)
  refine congrArg _ ?_
  funext a
  apply Fin.ext
  match a with
  | ⟨0, _⟩ => show win2_0.index t (0 : Fin 2) * 2000 + 1 * r.val = R.val; omega
  | ⟨1, _⟩ => show win2_0.index t (1 : Fin 2) * 128 + 1 * k.val = k.val; omega

/-- Row `r` of a scaling block at point `t` is row `2000 t + r` of the scaling column. -/
private theorem degBlk_apply (c : Dev nD) (t : Fin cfg2.N) (r : Fin 2000) (R : Fin 50000)
    (hR : R.val = 2000 * t.val + r.val) :
    degBlk V c t (ix2 r (0 : Fin 1)) = degArr V c (ix2 R (0 : Fin 1)) := by
  obtain ⟨-, -, e0, e1, -⟩ := blockIndex t
  show V c main_v14 (((cfg2.win 1).blk t).view.emb (ix2 r (0 : Fin 1))) = V c main_v14 (ix2 R (0 : Fin 1))
  refine congrArg _ ?_
  funext a
  apply Fin.ext
  match a with
  | ⟨0, _⟩ => show win2_1.index t (0 : Fin 2) * 2000 + 1 * r.val = R.val; omega
  | ⟨1, _⟩ => show win2_1.index t (1 : Fin 2) * 1 + 1 * (0 : Fin 1).val = (0 : Fin 1).val; omega

/-- The weight block at every point is the weight matrix. -/
private theorem wgtBlk_apply (c : Dev nD) (t : Fin cfg2.N) (k j : Fin 128) :
    wgtBlk V c t (ix2 k j) = wgtArr V c (ix2 k j) := by
  obtain ⟨-, -, -, -, e0, e1, -⟩ := blockIndex t
  show V c main_arg5 (((cfg2.win 2).blk t).view.emb (ix2 k j)) = V c main_arg5 (ix2 k j)
  refine congrArg _ ?_
  funext a
  apply Fin.ext
  match a with
  | ⟨0, _⟩ => show win2_2.index t (0 : Fin 2) * 128 + 1 * k.val = k.val; omega
  | ⟨1, _⟩ => show win2_2.index t (1 : Fin 2) * 128 + 1 * j.val = j.val; omega

/-- The bias block at every point is the bias row. -/
private theorem biasBlk_apply (c : Dev nD) (t : Fin cfg2.N) (j : Fin 128) :
    biasBlk V c t (ix2 (0 : Fin 1) j) = biasArr V c (ix2 (0 : Fin 1) j) := by
  obtain ⟨-, -, -, -, -, -, e0, e1, -⟩ := blockIndex t
  show V c main_v38 (((cfg2.win 3).blk t).view.emb (ix2 (0 : Fin 1) j)) = V c main_v38 (ix2 (0 : Fin 1) j)
  refine congrArg _ ?_
  funext a
  apply Fin.ext
  match a with
  | ⟨0, _⟩ => show win2_3.index t (0 : Fin 2) * 1 + 1 * (0 : Fin 1).val = (0 : Fin 1).val; omega
  | ⟨1, _⟩ => show win2_3.index t (1 : Fin 2) * 128 + 1 * j.val = j.val; omega

/-- Row `r` of the next layer's scaling block at point `t` is row `2000 t + r` of that column. -/
private theorem nextBlk_apply (c : Dev nD) (t : Fin cfg2.N) (r : Fin 2000) (R : Fin 50000)
    (hR : R.val = 2000 * t.val + r.val) :
    nextBlk V c t (ix2 r (0 : Fin 1)) = nextArr V c (ix2 R (0 : Fin 1)) := by
  obtain ⟨-, -, -, -, -, -, -, -, e0, e1, -⟩ := blockIndex t
  show V c main_v11 (((cfg2.win 4).blk t).view.emb (ix2 r (0 : Fin 1))) = V c main_v11 (ix2 R (0 : Fin 1))
  refine congrArg _ ?_
  funext a
  apply Fin.ext
  match a with
  | ⟨0, _⟩ => show win2_4.index t (0 : Fin 2) * 2000 + 1 * r.val = R.val; omega
  | ⟨1, _⟩ => show win2_4.index t (1 : Fin 2) * 1 + 1 * (0 : Fin 1).val = (0 : Fin 1).val; omega

/-- The layer's value as one function of the entry arrays. -/
private abbrev layerOut (c : Dev nD) : FVec Ideal SNxD .f32 :=
  scaleRows (denseRelu (featArr V c) (degArr V c) (wgtArr V c) (biasArr V c)) (nextArr V c)

/-- Grid point `t` writes back rows `2000 t … 2000 t + 1999` of the layer's value. -/
private theorem flushed_eq (c : Dev nD) (t : Fin cfg2.N) :
    (dat2 (F := Ideal) V c).flushed 5 t = ((cfg2.win 5).blk t).view.read (Elt Ideal) (layerOut V c) := by
  show (cfg2.win 5).cut (grid2.coords t) ((dat2 (F := Ideal) V c).after 5 t) = _
  rw [after2_5]
  unfold out2_5
  rw [View.canon_unit_zero zeroOff]
  simp only [View.ld_unit_zero (S := S2000x128) zeroOff, View.ld_unit_zero (S := S2000x1) zeroOff,
    View.ld_unit_zero (S := S128x128) zeroOff, View.ld_unit_zero (S := S1x128) zeroOff]
  obtain ⟨-, -, -, -, -, -, -, -, -, -, e0, e1⟩ := blockIndex t
  have hN : t.val < 25 := Nat.lt_of_lt_of_eq t.isLt N_2
  refine funext fun (y : S2000x128.Idx) => ?_
  obtain ⟨r, j, rfl⟩ : ∃ (r : Fin 2000) (j : Fin 128), y = ix2 r j :=
    ⟨⟨(y 0).val, (y 0).isLt⟩, ⟨(y 1).val, (y 1).isLt⟩, by funext a; match a with | ⟨0, _⟩ => rfl | ⟨1, _⟩ => rfl⟩
  show k2_pay1 (F := Ideal) (featBlk V c t) (degBlk V c t) (wgtBlk V c t) (biasBlk V c t) (nextBlk V c t) (ix2 r j)
    = layerOut V c (((cfg2.win 5).blk t).view.emb (ix2 r j))
  refine (pay2_apply (featBlk V c t) (degBlk V c t) (wgtBlk V c t) (biasBlk V c t) (nextBlk V c t) r j).trans ?_
  -- the block's row `r` is the array's row `2000 t + r`
  obtain ⟨R, hR⟩ : ∃ R : Fin 50000, R.val = 2000 * t.val + r.val := ⟨⟨2000 * t.val + r.val, by omega⟩, rfl⟩
  have hemb : ((cfg2.win 5).blk t).view.emb (ix2 r j) = (ix2 R j : SNxD.Idx) := by
    funext a
    apply Fin.ext
    match a with
    | ⟨0, _⟩ => show win2_5.index t (0 : Fin 2) * 2000 + 1 * r.val = R.val; omega
    | ⟨1, _⟩ => show win2_5.index t (1 : Fin 2) * 128 + 1 * j.val = j.val; omega
  refine Eq.trans ?_ (congrArg (layerOut V c) hemb.symm)
  have hsum : (∑ k : Fin 128, (featBlk V c t (ix2 r k) * degBlk V c t (ix2 r (0 : Fin 1))) * wgtBlk V c t (ix2 k j))
      = ∑ k : Fin 128, (featArr V c (ix2 R k) * degArr V c (ix2 R (0 : Fin 1))) * wgtArr V c (ix2 k j) :=
    Finset.sum_congr rfl fun k _ => by
      rw [featBlk_apply V c t r k R hR, degBlk_apply V c t r R hR, wgtBlk_apply V c t k j]
  rw [hsum, biasBlk_apply V c t j, nextBlk_apply V c t r R hR]
  rfl

/-- An index of the output array is in point `t`'s block iff each coordinate is in the block's range on its axis. -/
private theorem mem_rows (t : Fin cfg2.N) (i : S50000x128.Idx) :
    i ∈ ((cfg2.win 5).blk t).view.set ↔ ∀ a : Fin 2, win2_5.index t a * S2000x128.size a ≤ (i a).val
      ∧ (i a).val < win2_5.index t a * S2000x128.size a + S2000x128.size a := by
  show i ∈ ((View.whole main_v39).slice (win2_5.rect t)).set ↔ _
  rw [View.set_slice_whole, Rect.mem_set_unit]
  exact Iff.rfl

/-- The 25 row blocks cover the 50000 rows: row `n` lies in the block of point `n / 2000`. -/
private theorem rows_cover (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ : ∃ t : Fin cfg2.N, t.val = (i 0).val / 2000 :=
    ⟨⟨(i 0).val / 2000, by rw [show cfg2.N = 25 from N_2]; omega⟩, rfl⟩
  obtain ⟨-, -, -, -, -, -, -, -, -, -, e0, e1⟩ := blockIndex t
  refine ⟨t, flush2_5 t, ?_⟩
  rw [mem_rows]
  intro a
  match a with
  | ⟨0, _⟩ =>
    show win2_5.index t (0 : Fin 2) * 2000 ≤ (i 0).val ∧ (i 0).val < win2_5.index t (0 : Fin 2) * 2000 + 2000
    omega
  | ⟨1, _⟩ =>
    show win2_5.index t (1 : Fin 2) * 128 ≤ (i 1).val ∧ (i 1).val < win2_5.index t (1 : Fin 2) * 128 + 128
    omega

/-- The output array after region 2. -/
theorem final2 (c : Dev nD) :
    (dat2 (F := Ideal) V c).arrAt 5 cfg2.N
      = scaleRows (denseRelu (V c main_v37) (V c main_v14) (V c main_arg5) (V c main_v38)) (V c main_v11) :=
  (dat2 (F := Ideal) V c).arrAt_eq_of_cover 5 (layerOut V c) (fun t _ => flushed_eq V c t) rows_cover

end Cert.KernelIdeal.Hand

end
-- ==== Proof.KerReg3.lean ====
/-
  Region 3 (the final layer), from blocks to the array: grid point `t` writes back rows `2000 t … 2000 t + 1999` of
  `denseRelu a d w b`, and the 25 blocks cover the 50000 rows.
-/
import proofs.«132122_j23003844838151_1_alg».proof.Proof.Gen.KernelIdeal.Frame
import proofs.«132122_j23003844838151_1_alg».proof.Proof.Rows
import proofs.«132122_j23003844838151_1_alg».proof.Proof.KerPay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

-- the TensorCore's buffer contents when the region is entered
variable (V : (c : Dev nD) → (b : Ref sig .tc) → Buf (Elt Ideal) ((c : Thread nD τ).loc b))

/-- A block whose offsets are all zero starts at the origin. -/
private theorem origin_zero : (![0, 0] : Fin 2 → Nat) = fun _ => 0 := funext fun a => by fin_cases a <;> rfl

/-- The index maps of region 3 over its 25 grid points: the row-blocked windows (the layer's input, the row scalars, the
    output) have row-block index the point itself and column-block index 0; the weight matrix and the bias row are one
    block each, at block index (0, 0). -/
private theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

/-- One stored entry: if row `r` of the input block is the row of `i` in the array, the scalar block's entry `(r, 0)` is
    that row's scalar, column `j` of the weight block is the column of `i`'s feature, and the bias block's entry `(0, j)`
    is that feature's bias, then the kernel's stored value at `(r, j)` is `denseRelu` at `i`: the same sum over the
    feature axis, term by term. -/
private theorem stored3 (x0 : Vec Ideal S2000x128 .f32) (x1 : Vec Ideal S2000x1 .f32) (x2 : Vec Ideal S128x128 .f32)
    (x3 : Vec Ideal S1x128 .f32)
    (a : FVec Ideal SNxD .f32) (d : FVec Ideal SNx1 .f32) (w : FVec Ideal SDxD .f32) (b : FVec Ideal S1xD .f32)
    (r : Fin 2000) (j : Fin 128) (i : SNxD.Idx)
    (ha : ∀ k : Fin 128, x0 (ix2 r k) = a (ix2 (node i) k))
    (hd : x1 (ix2 r (0 : Fin 1)) = d (ix2 (node i) (0 : Fin 1)))
    (hw : ∀ k : Fin 128, x2 (ix2 k j) = w (ix2 k (feat i)))
    (hb : x3 (ix2 (0 : Fin 1) j) = b (ix2 (0 : Fin 1) (feat i))) :
    k3_pay1 (F := Ideal) x0 x1 x2 x3 (ix2 r j) = denseRelu a d w b i := by
  rw [pay3_apply, denseRelu_apply, hd, hb]
  have hs : (∑ k : Fin 128, (x0 (ix2 r k) * d (ix2 (node i) (0 : Fin 1))) * x2 (ix2 k j))
      = ∑ k : Fin 128, (a (ix2 (node i) k) * d (ix2 (node i) (0 : Fin 1))) * w (ix2 k (feat i)) :=
    Finset.sum_congr rfl fun k _ => by rw [ha k, hw k]
  rw [hs]

/-- What grid point `t` writes back is block `t` (rows `2000 t … 2000 t + 1999`) of `denseRelu` of the entry arrays. -/
private theorem flushed3 (c : Dev nD) (t : Fin cfg3.N) :
    (dat3 (F := Ideal) V c).flushed 4 t
      = ((cfg3.win 4).blk t).view.read (Elt Ideal)
          (denseRelu (V c main_v49) (V c main_v14) (V c main_arg7) (V c main_v50)) := by
  show (cfg3.win 4).cut (grid3.coords t) ((dat3 V c).after 4 t) = _
  rw [after3_4]
  unfold out3_4
  rw [View.canon_unit_zero origin_zero]
  simp only [View.ld_unit_zero (S := S2000x128) origin_zero, View.ld_unit_zero (S := S2000x1) origin_zero,
    View.ld_unit_zero (S := S128x128) origin_zero, View.ld_unit_zero (S := S1x128) origin_zero]
  obtain ⟨e00, e01, e10, e11, e20, e21, e30, e31, e40, e41⟩ := blockIdx3 t
  funext y
  obtain ⟨r, j, rfl⟩ : ∃ (r : Fin 2000) (j : Fin 128), y = ix2 r j := ⟨y 0, y 1, eq_ix2 y⟩
  show k3_pay1 (F := Ideal) (iblk3 V c 0 t) (iblk3 V c 1 t) (iblk3 V c 2 t) (iblk3 V c 3 t) (ix2 r j)
    = denseRelu (V c main_v49) (V c main_v14) (V c main_arg7) (V c main_v50) (((cfg3.win 4).blk t).view.emb (ix2 r j))
  refine stored3 (iblk3 V c 0 t) (iblk3 V c 1 t) (iblk3 V c 2 t) (iblk3 V c 3 t)
    (V c main_v49) (V c main_v14) (V c main_arg7) (V c main_v50) r j
    (((cfg3.win 4).blk t).view.emb (ix2 r j)) (fun k => ?_) ?_ (fun k => ?_) ?_
  · -- the input block's row is the output block's row; its columns are the whole feature axis
    show V c main_v49 (((cfg3.win 0).blk t).view.emb (ix2 r k))
      = V c main_v49 (ix2 (node (((cfg3.win 4).blk t).view.emb (ix2 r j))) k)
    refine congrArg (V c main_v49) ?_
    funext a; apply Fin.ext
    match a with
    | ⟨0, _⟩ => show win3_0.index t (0 : Fin 2) * 2000 + 1 * r.val = win3_4.index t (0 : Fin 2) * 2000 + 1 * r.val; omega
    | ⟨1, _⟩ => show win3_0.index t (1 : Fin 2) * 128 + 1 * k.val = k.val; omega
  · -- the scalar block's row is the output block's row
    show V c main_v14 (((cfg3.win 1).blk t).view.emb (ix2 r (0 : Fin 1)))
      = V c main_v14 (ix2 (node (((cfg3.win 4).blk t).view.emb (ix2 r j))) (0 : Fin 1))
    refine congrArg (V c main_v14) ?_
    funext a; apply Fin.ext
    match a with
    | ⟨0, _⟩ => show win3_1.index t (0 : Fin 2) * 2000 + 1 * r.val = win3_4.index t (0 : Fin 2) * 2000 + 1 * r.val; omega
    | ⟨1, _⟩ => show win3_1.index t (1 : Fin 2) * 1 + 1 * 0 = 0; omega
  · -- the weight block is the whole weight matrix; its column is the output's column
    show V c main_arg7 (((cfg3.win 2).blk t).view.emb (ix2 k j))
      = V c main_arg7 (ix2 k (feat (((cfg3.win 4).blk t).view.emb (ix2 r j))))
    refine congrArg (V c main_arg7) ?_
    funext a; apply Fin.ext
    match a with
    | ⟨0, _⟩ => show win3_2.index t (0 : Fin 2) * 128 + 1 * k.val = k.val; omega
    | ⟨1, _⟩ => show win3_2.index t (1 : Fin 2) * 128 + 1 * j.val = win3_4.index t (1 : Fin 2) * 128 + 1 * j.val; omega
  · -- the bias block is the whole bias row; its column is the output's column
    show V c main_v50 (((cfg3.win 3).blk t).view.emb (ix2 (0 : Fin 1) j))
      = V c main_v50 (ix2 (0 : Fin 1) (feat (((cfg3.win 4).blk t).view.emb (ix2 r j))))
    refine congrArg (V c main_v50) ?_
    funext a; apply Fin.ext
    match a with
    | ⟨0, _⟩ => show win3_3.index t (0 : Fin 2) * 1 + 1 * 0 = 0; omega
    | ⟨1, _⟩ => show win3_3.index t (1 : Fin 2) * 128 + 1 * j.val = win3_4.index t (1 : Fin 2) * 128 + 1 * j.val; omega

/-- An index of the array is in point `t`'s block iff each coordinate is in the block's range on its axis. -/
private theorem mem_blk3 (t : Fin cfg3.N) (i : SNxD.Idx) :
    i ∈ ((cfg3.win 4).blk t).view.set ↔ ∀ a : Fin 2, win3_4.index t a * S2000x128.size a ≤ (i a).val
      ∧ (i a).val < win3_4.index t a * S2000x128.size a + S2000x128.size a := by
  show i ∈ ((View.whole main_v51).slice (win3_4.rect t)).set ↔ _
  rw [View.set_slice_whole, Rect.mem_set_unit]
  exact Iff.rfl

/-- Row `n` of the array lies in the block of grid point `n / 2000`: the 25 blocks cover the 50000 rows. -/
private theorem cover3 (i : SNxD.Idx) :
    ∃ t : Fin cfg3.N, (cfg3.win 4).flush t = true ∧ i ∈ ((cfg3.win 4).blk t).view.set := by
  have hi0 : (i 0).val < 50000 := (i 0).isLt
  have hi1 : (i 1).val < 128 := (i 1).isLt
  obtain ⟨t, ht⟩ : ∃ t : Fin cfg3.N, t.val = (i 0).val / 2000 :=
    ⟨⟨(i 0).val / 2000, by rw [show cfg3.N = 25 from N_3]; omega⟩, rfl⟩
  obtain ⟨-, -, -, -, -, -, -, -, e40, e41⟩ := blockIdx3 t
  refine ⟨t, flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    omega
  | ⟨1, _⟩ =>
    show win3_4.index t (1 : Fin 2) * 128 ≤ (i 1).val ∧ (i 1).val < win3_4.index t (1 : Fin 2) * 128 + 128
    omega

/-- The output array after region 3. -/
theorem final3 (c : Dev nD) :
    (dat3 (F := Ideal) V c).arrAt 4 cfg3.N = denseRelu (V c main_v49) (V c main_v14) (V c main_arg7) (V c main_v50) := by
  exact (dat3 (F := Ideal) V c).arrAt_eq_of_cover 4
    (denseRelu (V c main_v49) (V c main_v14) (V c main_arg7) (V c main_v50)) (fun t _ => flushed3 V c t) cover3

end Cert.KernelIdeal.Hand

end
-- ==== Proof.KerHost.lean ====
/-
  What the host operations of the kernel's program leave in each region's entry arrays, read back to the launch memory.

  * `degCol idx`: the degree normalisation as a column `[n, 1]`: the count of edges at each node (a scatter-add of ones at
    `idx`), clamped below at one, to the power `-1/2`, reshaped.
  * `agg x src dst`: the sparse aggregation: rows of `x` gathered at `src` (negative indices wrapped by `n`) and
    scatter-added at `dst` into zeros.
  * `biasRow b`: a bias vector reshaped to a row `[1, d]`.

  Each region's entry arrays are these functions of the launch arguments and of the previous region's output array; the
  arguments themselves, and the two degree columns once computed, are written by no later host operation and by no region.
-/
import proofs.«132122_j23003844838151_1_alg».proof.Proof.Gen.KernelIdeal.Frame
import Idealize.ShloMosaic.Lib.ValueIdx
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

/-- `deg^(-1/2)` as a column: edges counted at `idx`, clamped below at one, to the power `-1/2`. -/
def degCol (idx : (⟨S800000, .i32⟩ : BufTy).Contents (Elt Ideal)) : (⟨S50000x1, .f32⟩ : BufTy).Contents (Elt Ideal) :=
  shapeCast S50000x1
    (Host.powf (F := Ideal)
      (maximumf (broadcastInDim S50000 ![] bcast_S_S50000 (id (constant (F := Ideal) S_ .f32 0x3F800000#32)))
        (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 idx)
          (broadcastInDim S800000 ![] bcast_S_S800000 (constant (F := Ideal) S_ .f32 0x3F800000#32))))
      (broadcastInDim S50000 ![] bcast_S_S50000 (constant (F := Ideal) S_ .f32 0xBF000000#32)))
    shapeCasts_S50000_S50000x1

/-- The sparse aggregation: gather rows at `src` (negative indices wrapped), scatter-add them at `dst` into zeros. -/
def agg (x : (⟨S50000x128, .f32⟩ : BufTy).Contents (Elt Ideal)) (src dst : (⟨S800000, .i32⟩ : BufTy).Contents (Elt Ideal)) : (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 dst)
    (Host.gather gather_S50000x128_S800000x1_S800000x128_1_0_n_n_0_1_1128 x
      (broadcastInDim S800000x1 ![0] bcast_S800000_S800000x1_0
        (select (cmpi .slt src (broadcastInDim S800000 ![] bcast_S_S800000 (constantI S_ 32 0#32)))
          (addi src (broadcastInDim S800000 ![] bcast_S_S800000 (constantI S_ 32 50000#32))) src)))

/-- A bias vector as a row. -/
def biasRow (b : (⟨S128, .f32⟩ : BufTy).Contents (Elt Ideal)) : (⟨S1x128, .f32⟩ : BufTy).Contents (Elt Ideal) := shapeCast S1x128 b shapeCasts_S128_S1x128

variable (m : (ℓ : Loc nD τ sig) → Buf (Elt Ideal) ℓ) (ρ : Dev nD → PrngReg)

/-! ## A buffer no operation of a host stretch writes keeps its contents

  The buffers each stretch writes, as literal lists; a reference outside a stretch's list reads after the stretch what it
  read before it. -/

private abbrev wr00 : List (Ref sig .tc) := [main_cst, main_v0, main_cst_0, main_v1, main_v2, main_v3, main_cst_1]
private abbrev wr01 : List (Ref sig .tc) := [main_call0_v0, main_call0_v1, main_v4]
private abbrev wr02 : List (Ref sig .tc) := [main_cst_2, main_v5, main_v6, main_v7, main_cst_3]
private abbrev wr03 : List (Ref sig .tc) := [main_call1_v0, main_call1_v1, main_v8]
private abbrev wr04 : List (Ref sig .tc) := [main_cst_4, main_v9, main_v10, main_v11, main_cst_5, main_v12, main_v13, main_v14]
private abbrev wr1 : List (Ref sig .tc) :=
  [main_c, main_v16, main_v17, main_c_6, main_v18, main_v19, main_v20, main_v21, main_v22, main_cst_7, main_v23, main_v24,
   main_v25, main_v26]
private abbrev wr2 : List (Ref sig .tc) :=
  [main_c_8, main_v28, main_v29, main_c_9, main_v30, main_v31, main_v32, main_v33, main_v34, main_cst_10, main_v35, main_v36,
   main_v37, main_v38]
private abbrev wr3 : List (Ref sig .tc) :=
  [main_c_11, main_v40, main_v41, main_c_12, main_v42, main_v43, main_v44, main_v45, main_v46, main_cst_13, main_v47, main_v48,
   main_v49, main_v50]

/-- Every operation of a literal stretch writes one buffer, and it is in the list. -/
local macro "writes_listed" : tactic =>
  `(tactic| (simp only [hostOps0, hostOps0_1, hostOps0_2, hostOps0_3, hostOps0_4, hostOps1, hostOps2, hostOps3, List.Forall,
      StableHlo.nullary_writes, StableHlo.unary_writes, StableHlo.binary_writes, StableHlo.ternary_writes,
      StableHlo.reshape_writes, Finset.singleton_subset_iff, List.mem_toFinset]
             repeat' apply And.intro
             all_goals exact List.mem_map_of_mem (by decide)))

private theorem keep00 (X : Valuation τ sig (Elt Ideal)) (r : Ref sig .tc) (h : r ∉ wr00) :
    StableHlo.after hostOps0 X (Proc.devRef .tc r) = X (Proc.devRef .tc r) :=
  StableHlo.after_of_writes_sub hostOps0 X (W := wr00) (by writes_listed) h
private theorem keep01 (X : Valuation τ sig (Elt Ideal)) (r : Ref sig .tc) (h : r ∉ wr01) :
    StableHlo.after hostOps0_1 X (Proc.devRef .tc r) = X (Proc.devRef .tc r) :=
  StableHlo.after_of_writes_sub hostOps0_1 X (W := wr01) (by writes_listed) h
private theorem keep02 (X : Valuation τ sig (Elt Ideal)) (r : Ref sig .tc) (h : r ∉ wr02) :
    StableHlo.after hostOps0_2 X (Proc.devRef .tc r) = X (Proc.devRef .tc r) :=
  StableHlo.after_of_writes_sub hostOps0_2 X (W := wr02) (by writes_listed) h
private theorem keep03 (X : Valuation τ sig (Elt Ideal)) (r : Ref sig .tc) (h : r ∉ wr03) :
    StableHlo.after hostOps0_3 X (Proc.devRef .tc r) = X (Proc.devRef .tc r) :=
  StableHlo.after_of_writes_sub hostOps0_3 X (W := wr03) (by writes_listed) h
private theorem keep04 (X : Valuation τ sig (Elt Ideal)) (r : Ref sig .tc) (h : r ∉ wr04) :
    StableHlo.after hostOps0_4 X (Proc.devRef .tc r) = X (Proc.devRef .tc r) :=
  StableHlo.after_of_writes_sub hostOps0_4 X (W := wr04) (by writes_listed) h
private theorem keep1 (X : Valuation τ sig (Elt Ideal)) (r : Ref sig .tc) (h : r ∉ wr1) :
    StableHlo.after hostOps1 X (Proc.devRef .tc r) = X (Proc.devRef .tc r) :=
  StableHlo.after_of_writes_sub hostOps1 X (W := wr1) (by writes_listed) h
private theorem keep2 (X : Valuation τ sig (Elt Ideal)) (r : Ref sig .tc) (h : r ∉ wr2) :
    StableHlo.after hostOps2 X (Proc.devRef .tc r) = X (Proc.devRef .tc r) :=
  StableHlo.after_of_writes_sub hostOps2 X (W := wr2) (by writes_listed) h
private theorem keep3 (X : Valuation τ sig (Elt Ideal)) (r : Ref sig .tc) (h : r ∉ wr3) :
    StableHlo.after hostOps3 X (Proc.devRef .tc r) = X (Proc.devRef .tc r) :=
  StableHlo.after_of_writes_sub hostOps3 X (W := wr3) (by writes_listed) h

/-! ## What the five opening stretches compute

  Each lemma reads one buffer after one stretch, over arbitrary contents `X` before it. Stretches 0 and 2 count the edges at
  each node (a scatter-add of ones into zeros, at argument 1 and at argument 2); stretches 1 and 3 clamp a count below at
  one; stretch 4 raises both to the power `-1/2` and reshapes them to columns. -/

private theorem st00_v3 (X : Valuation τ sig (Elt Ideal)) :
    StableHlo.after hostOps0 X (Proc.devRef .tc main_v3)
      = (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (X (Proc.devRef .tc main_arg1)))
          (broadcastInDim S800000 ![] bcast_S_S800000 (constant (F := Ideal) S_ .f32 0x3F800000#32))
          : (⟨S50000, .f32⟩ : BufTy).Contents (Elt Ideal)) := by
  after_results

private theorem st00_v0 (X : Valuation τ sig (Elt Ideal)) :
    StableHlo.after hostOps0 X (Proc.devRef .tc main_v0)
      = (broadcastInDim S800000 ![] bcast_S_S800000 (constant (F := Ideal) S_ .f32 0x3F800000#32)
          : (⟨S800000, .f32⟩ : BufTy).Contents (Elt Ideal)) := by
  after_results

private theorem st00_cst1 (X : Valuation τ sig (Elt Ideal)) :
    StableHlo.after hostOps0 X (Proc.devRef .tc main_cst_1)
      = (constant (F := Ideal) S_ .f32 0x3F800000#32 : (⟨S_, .f32⟩ : BufTy).Contents (Elt Ideal)) := by
  after_results

private theorem st01_v4 (X : Valuation τ sig (Elt Ideal)) :
    StableHlo.after hostOps0_1 X (Proc.devRef .tc main_v4)
      = (maximumf (F := Ideal) (φ := .f32)
          (broadcastInDim S50000 ![] bcast_S_S50000 (id (X (Proc.devRef .tc main_cst_1) : (⟨S_, .f32⟩ : BufTy).Contents (Elt Ideal))))
          (X (Proc.devRef .tc main_v3)) : (⟨S50000, .f32⟩ : BufTy).Contents (Elt Ideal)) := by
  after_results
  rfl

private theorem st02_v7 (X : Valuation τ sig (Elt Ideal)) :
    StableHlo.after hostOps0_2 X (Proc.devRef .tc main_v7)
      = (Host.scatterAdd (F := Ideal) scatter_S50000_S800000x1_S800000_n_0_0_1
          (broadcastInDim S50000 ![] bcast_S_S50000 (constant (F := Ideal) S_ .f32 0x00000000#32))
          (broadcastInDim S800000x1 ![0] bcast_S800000_S800000x1_0 (X (Proc.devRef .tc main_arg2)))
          (X (Proc.devRef .tc main_v0))
          : (⟨S50000, .f32⟩ : BufTy).Contents (Elt Ideal)) := by
  after_results

private theorem st02_cst3 (X : Valuation τ sig (Elt Ideal)) :
    StableHlo.after hostOps0_2 X (Proc.devRef .tc main_cst_3)
      = (constant (F := Ideal) S_ .f32 0x3F800000#32 : (⟨S_, .f32⟩ : BufTy).Contents (Elt Ideal)) := by
  after_results

private theorem st03_v8 (X : Valuation τ sig (Elt Ideal)) :
    StableHlo.after hostOps0_3 X (Proc.devRef .tc main_v8)
      = (maximumf (F := Ideal) (φ := .f32)
          (broadcastInDim S50000 ![] bcast_S_S50000 (id (X (Proc.devRef .tc main_cst_3) : (⟨S_, .f32⟩ : BufTy).Contents (Elt Ideal))))
          (X (Proc.devRef .tc main_v7)) : (⟨S50000, .f32⟩ : BufTy).Contents (Elt Ideal)) := by
  after_results
  rfl

private theorem st04_v11 (X : Valuation τ sig (Elt Ideal)) :
    StableHlo.after hostOps0_4 X (Proc.devRef .tc main_v11)
      = (shapeCast S50000x1
          (Host.powf (F := Ideal) (X (Proc.devRef .tc main_v4))
            (broadcastInDim S50000 ![] bcast_S_S50000 (constant (F := Ideal) S_ .f32 0xBF000000#32)))
          shapeCasts_S50000_S50000x1 : (⟨S50000x1, .f32⟩ : BufTy).Contents (Elt Ideal)) := by
  after_results
  rfl

private theorem st04_v14 (X : Valuation τ sig (Elt Ideal)) :
    StableHlo.after hostOps0_4 X (Proc.devRef .tc main_v14)
      = (shapeCast S50000x1
          (Host.powf (F := Ideal) (X (Proc.devRef .tc main_v8))
            (broadcastInDim S50000 ![] bcast_S_S50000 (constant (F := Ideal) S_ .f32 0xBF000000#32)))
          shapeCasts_S50000_S50000x1 : (⟨S50000x1, .f32⟩ : BufTy).Contents (Elt Ideal)) := by
  after_results
  rfl

/-- The five opening stretches leave the degree column of argument 1 in `main_v11`. -/
private theorem open_v11 (X : Valuation τ sig (Elt Ideal)) :
    StableHlo.after hostOps0_4 (StableHlo.after hostOps0_3 (StableHlo.after hostOps0_2 (StableHlo.after hostOps0_1
      (StableHlo.after hostOps0 X)))) (Proc.devRef .tc main_v11) = degCol (X (Proc.devRef .tc main_arg1)) := by
  rw [st04_v11, keep03 _ main_v4 (by decide), keep02 _ main_v4 (by decide), st01_v4, st00_cst1, st00_v3]
  rfl

/-- The five opening stretches leave the degree column of argument 2 in `main_v14`. -/
private theorem open_v14 (X : Valuation τ sig (Elt Ideal)) :
    StableHlo.after hostOps0_4 (StableHlo.after hostOps0_3 (StableHlo.after hostOps0_2 (StableHlo.after hostOps0_1
      (StableHlo.after hostOps0 X)))) (Proc.devRef .tc main_v14) = degCol (X (Proc.devRef .tc main_arg2)) := by
  rw [st04_v14, st03_v8, st02_cst3, st02_v7, keep01 _ main_arg2 (by decide), keep00 _ main_arg2 (by decide),
    keep01 _ main_v0 (by decide), st00_v0]
  rfl

/-- A buffer none of the five opening stretches writes. -/
private theorem open_keep (X : Valuation τ sig (Elt Ideal)) (r : Ref sig .tc) (h : r ∉ wr00 ++ wr01 ++ wr02 ++ wr03 ++ wr04) :
    StableHlo.after hostOps0_4 (StableHlo.after hostOps0_3 (StableHlo.after hostOps0_2 (StableHlo.after hostOps0_1
      (StableHlo.after hostOps0 X)))) (Proc.devRef .tc r) = X (Proc.devRef .tc r) := by
  simp only [List.mem_append, not_or] at h
  obtain ⟨⟨⟨⟨h0, h1⟩, h2⟩, h3⟩, h4⟩ := h
  rw [keep04 _ r h4, keep03 _ r h3, keep02 _ r h2, keep01 _ r h1, keep00 _ r h0]

/-! ## What the three later stretches compute

  Each of them wraps the negative source indices, gathers the previous region's rows there, scatter-adds them at the
  destination indices into zeros, and reshapes the next layer's bias to a row; it reads the two index arguments, the
  previous region's output array and one bias argument. -/

private theorem st1_v25 (X : Valuation τ sig (Elt Ideal)) :
    StableHlo.after hostOps1 X (Proc.devRef .tc main_v25)
      = agg (X (Proc.devRef .tc main_v15)) (X (Proc.devRef .tc main_arg1)) (X (Proc.devRef .tc main_arg2)) := by
  after_results
  rfl
private theorem st1_v26 (X : Valuation τ sig (Elt Ideal)) :
    StableHlo.after hostOps1 X (Proc.devRef .tc main_v26) = biasRow (X (Proc.devRef .tc main_arg4)) := by
  after_results
  rfl
private theorem st2_v37 (X : Valuation τ sig (Elt Ideal)) :
    StableHlo.after hostOps2 X (Proc.devRef .tc main_v37)
      = agg (X (Proc.devRef .tc main_v27)) (X (Proc.devRef .tc main_arg1)) (X (Proc.devRef .tc main_arg2)) := by
  after_results
  rfl
private theorem st2_v38 (X : Valuation τ sig (Elt Ideal)) :
    StableHlo.after hostOps2 X (Proc.devRef .tc main_v38) = biasRow (X (Proc.devRef .tc main_arg6)) := by
  after_results
  rfl
private theorem st3_v49 (X : Valuation τ sig (Elt Ideal)) :
    StableHlo.after hostOps3 X (Proc.devRef .tc main_v49)
      = agg (X (Proc.devRef .tc main_v39)) (X (Proc.devRef .tc main_arg1)) (X (Proc.devRef .tc main_arg2)) := by
  after_results
  rfl
private theorem st3_v50 (X : Valuation τ sig (Elt Ideal)) :
    StableHlo.after hostOps3 X (Proc.devRef .tc main_v50) = biasRow (X (Proc.devRef .tc main_arg8)) := by
  after_results
  rfl

/-! ## A launch argument at each boundary

  An argument that no host stretch so far writes, and that is no array of a region already run, still holds the launch
  contents. The side conditions accumulate boundary by boundary; each is decided on the literal reference. -/

private abbrev Free5 (r : Ref sig .tc) : Prop := r ∉ wr00 ++ wr01 ++ wr02 ++ wr03 ++ wr04
private abbrev Free6 (r : Ref sig .tc) : Prop := Free5 r ∧ ∀ w, Pipeline.arrRef spec0 w ≠ r
private abbrev Free7 (r : Ref sig .tc) : Prop := Free6 r ∧ r ∉ wr1
private abbrev Free8 (r : Ref sig .tc) : Prop := Free7 r ∧ ∀ w, Pipeline.arrRef spec1 w ≠ r
private abbrev Free9 (r : Ref sig .tc) : Prop := Free8 r ∧ r ∉ wr2
private abbrev Free10 (r : Ref sig .tc) : Prop := Free9 r ∧ ∀ w, Pipeline.arrRef spec2 w ≠ r
private abbrev Free11 (r : Ref sig .tc) : Prop := Free10 r ∧ r ∉ wr3

private theorem W5_launch (c : Dev nD) (r : Ref sig .tc) (h : Free5 r) :
    W5 m ρ c (Proc.devRef .tc r) = m ((c.tc : Thread nD τ).loc r) :=
  open_keep (W0 m ρ c) r h
private theorem W6_launch (c : Dev nD) (r : Ref sig .tc) (h : Free6 r) :
    W6 m ρ c (Proc.devRef .tc r) = m ((c.tc : Thread nD τ).loc r) :=
  (W6_of_ne m ρ c r h.2).trans (W5_launch m ρ c r h.1)
private theorem W7_launch (c : Dev nD) (r : Ref sig .tc) (h : Free7 r) :
    W7 m ρ c (Proc.devRef .tc r) = m ((c.tc : Thread nD τ).loc r) :=
  (keep1 (W6 m ρ c) r h.2).trans (W6_launch m ρ c r h.1)
private theorem W8_launch (c : Dev nD) (r : Ref sig .tc) (h : Free8 r) :
    W8 m ρ c (Proc.devRef .tc r) = m ((c.tc : Thread nD τ).loc r) :=
  (W8_of_ne m ρ c r h.2).trans (W7_launch m ρ c r h.1)
private theorem W9_launch (c : Dev nD) (r : Ref sig .tc) (h : Free9 r) :
    W9 m ρ c (Proc.devRef .tc r) = m ((c.tc : Thread nD τ).loc r) :=
  (keep2 (W8 m ρ c) r h.2).trans (W8_launch m ρ c r h.1)
private theorem W10_launch (c : Dev nD) (r : Ref sig .tc) (h : Free10 r) :
    W10 m ρ c (Proc.devRef .tc r) = m ((c.tc : Thread nD τ).loc r) :=
  (W10_of_ne m ρ c r h.2).trans (W9_launch m ρ c r h.1)
private theorem W11_launch (c : Dev nD) (r : Ref sig .tc) (h : Free11 r) :
    W11 m ρ c (Proc.devRef .tc r) = m ((c.tc : Thread nD τ).loc r) :=
  (keep3 (W10 m ρ c) r h.2).trans (W10_launch m ρ c r h.1)

/-! ## Through a region: an input array holds at the region's exit what it held at its entry -/

private theorem W6_in (c : Dev nD) (w : Fin cfg0.W) (hin : (cfg0.win w).isOut = false) :
    W6 m ρ c (Proc.devRef .tc (Pipeline.arrRef spec0 w)) = W5 m ρ c (Proc.devRef .tc (Pipeline.arrRef spec0 w)) :=
  (W6_arr m ρ c w).trans (((dat0 (V5 m ρ) c).arrAt_in w hin _).trans (A_eq0 (V5 m ρ) c w))
private theorem W8_in (c : Dev nD) (w : Fin cfg1.W) (hin : (cfg1.win w).isOut = false) :
    W8 m ρ c (Proc.devRef .tc (Pipeline.arrRef spec1 w)) = W7 m ρ c (Proc.devRef .tc (Pipeline.arrRef spec1 w)) :=
  (W8_arr m ρ c w).trans (((dat1 (V7 m ρ) c).arrAt_in w hin _).trans (A_eq1 (V7 m ρ) c w))
private theorem W10_in (c : Dev nD) (w : Fin cfg2.W) (hin : (cfg2.win w).isOut = false) :
    W10 m ρ c (Proc.devRef .tc (Pipeline.arrRef spec2 w)) = W9 m ρ c (Proc.devRef .tc (Pipeline.arrRef spec2 w)) :=
  (W10_arr m ρ c w).trans (((dat2 (V9 m ρ) c).arrAt_in w hin _).trans (A_eq2 (V9 m ρ) c w))

/-! ## Region 0's entry -/
theorem V5_arg0 (c : Dev nD) : V5 m ρ c main_arg0 = (m ((c.tc : Thread nD τ).loc main_arg0)) :=
  W5_launch m ρ c main_arg0 (by decide)
theorem V5_v11 (c : Dev nD) : V5 m ρ c main_v11 = degCol (m ((c.tc : Thread nD τ).loc main_arg1)) :=
  open_v11 (W0 m ρ c)

/-- The second degree column is not an array of region 0: it is computed with the first, before region 0. -/
private theorem W6_v14 (c : Dev nD) : W6 m ρ c (Proc.devRef .tc main_v14) = degCol (m ((c.tc : Thread nD τ).loc main_arg2)) :=
  (W6_of_ne m ρ c main_v14 (by decide)).trans (open_v14 (W0 m ρ c))
/-- The first degree column is region 0's second input array. -/
private theorem W6_v11 (c : Dev nD) : W6 m ρ c (Proc.devRef .tc main_v11) = degCol (m ((c.tc : Thread nD τ).loc main_arg1)) :=
  (W6_in m ρ c 1 rfl).trans (V5_v11 m ρ c)

/-! ## Region 1's entry, over region 0's output array -/
theorem V7_v25 (c : Dev nD) : V7 m ρ c main_v25 = agg (W6 m ρ c (Proc.devRef .tc main_v15)) (m ((c.tc : Thread nD τ).loc main_arg1)) (m ((c.tc : Thread nD τ).loc main_arg2)) := by
  show StableHlo.after hostOps1 (W6 m ρ c) (Proc.devRef .tc main_v25) = _
  rw [st1_v25, W6_launch m ρ c main_arg1 (by decide), W6_launch m ρ c main_arg2 (by decide)]
theorem V7_v14 (c : Dev nD) : V7 m ρ c main_v14 = degCol (m ((c.tc : Thread nD τ).loc main_arg2)) :=
  (keep1 (W6 m ρ c) main_v14 (by decide)).trans (W6_v14 m ρ c)
theorem V7_arg3 (c : Dev nD) : V7 m ρ c main_arg3 = (m ((c.tc : Thread nD τ).loc main_arg3)) :=
  W7_launch m ρ c main_arg3 (by decide)
theorem V7_v26 (c : Dev nD) : V7 m ρ c main_v26 = biasRow (m ((c.tc : Thread nD τ).loc main_arg4)) := by
  show StableHlo.after hostOps1 (W6 m ρ c) (Proc.devRef .tc main_v26) = _
  rw [st1_v26, W6_launch m ρ c main_arg4 (by decide)]
theorem V7_v11 (c : Dev nD) : V7 m ρ c main_v11 = degCol (m ((c.tc : Thread nD τ).loc main_arg1)) :=
  (keep1 (W6 m ρ c) main_v11 (by decide)).trans (W6_v11 m ρ c)

/-- The degree columns are region 1's second and fifth input arrays. -/
private theorem W8_v14 (c : Dev nD) : W8 m ρ c (Proc.devRef .tc main_v14) = degCol (m ((c.tc : Thread nD τ).loc main_arg2)) :=
  (W8_in m ρ c 1 rfl).trans (V7_v14 m ρ c)
private theorem W8_v11 (c : Dev nD) : W8 m ρ c (Proc.devRef .tc main_v11) = degCol (m ((c.tc : Thread nD τ).loc main_arg1)) :=
  (W8_in m ρ c 4 rfl).trans (V7_v11 m ρ c)

/-! ## Region 2's entry, over region 1's output array -/
theorem V9_v37 (c : Dev nD) : V9 m ρ c main_v37 = agg (W8 m ρ c (Proc.devRef .tc main_v27)) (m ((c.tc : Thread nD τ).loc main_arg1)) (m ((c.tc : Thread nD τ).loc main_arg2)) := by
  show StableHlo.after hostOps2 (W8 m ρ c) (Proc.devRef .tc main_v37) = _
  rw [st2_v37, W8_launch m ρ c main_arg1 (by decide), W8_launch m ρ c main_arg2 (by decide)]
theorem V9_v14 (c : Dev nD) : V9 m ρ c main_v14 = degCol (m ((c.tc : Thread nD τ).loc main_arg2)) :=
  (keep2 (W8 m ρ c) main_v14 (by decide)).trans (W8_v14 m ρ c)
theorem V9_arg5 (c : Dev nD) : V9 m ρ c main_arg5 = (m ((c.tc : Thread nD τ).loc main_arg5)) :=
  W9_launch m ρ c main_arg5 (by decide)
theorem V9_v38 (c : Dev nD) : V9 m ρ c main_v38 = biasRow (m ((c.tc : Thread nD τ).loc main_arg6)) := by
  show StableHlo.after hostOps2 (W8 m ρ c) (Proc.devRef .tc main_v38) = _
  rw [st2_v38, W8_launch m ρ c main_arg6 (by decide)]
theorem V9_v11 (c : Dev nD) : V9 m ρ c main_v11 = degCol (m ((c.tc : Thread nD τ).loc main_arg1)) :=
  (keep2 (W8 m ρ c) main_v11 (by decide)).trans (W8_v11 m ρ c)

/-- The second degree column is region 2's second input array. -/
private theorem W10_v14 (c : Dev nD) : W10 m ρ c (Proc.devRef .tc main_v14) = degCol (m ((c.tc : Thread nD τ).loc main_arg2)) :=
  (W10_in m ρ c 1 rfl).trans (V9_v14 m ρ c)

/-! ## Region 3's entry, over region 2's output array -/
theorem V11_v49 (c : Dev nD) : V11 m ρ c main_v49 = agg (W10 m ρ c (Proc.devRef .tc main_v39)) (m ((c.tc : Thread nD τ).loc main_arg1)) (m ((c.tc : Thread nD τ).loc main_arg2)) := by
  show StableHlo.after hostOps3 (W10 m ρ c) (Proc.devRef .tc main_v49) = _
  rw [st3_v49, W10_launch m ρ c main_arg1 (by decide), W10_launch m ρ c main_arg2 (by decide)]
theorem V11_v14 (c : Dev nD) : V11 m ρ c main_v14 = degCol (m ((c.tc : Thread nD τ).loc main_arg2)) :=
  (keep3 (W10 m ρ c) main_v14 (by decide)).trans (W10_v14 m ρ c)
theorem V11_arg7 (c : Dev nD) : V11 m ρ c main_arg7 = (m ((c.tc : Thread nD τ).loc main_arg7)) :=
  W11_launch m ρ c main_arg7 (by decide)
theorem V11_v50 (c : Dev nD) : V11 m ρ c main_v50 = biasRow (m ((c.tc : Thread nD τ).loc main_arg8)) := by
  show StableHlo.after hostOps3 (W10 m ρ c) (Proc.devRef .tc main_v50) = _
  rw [st3_v50, W10_launch m ρ c main_arg8 (by decide)]

end Cert.KernelIdeal.Hand

end
-- ==== Proof.KerValue.lean ====
/-
  The kernel program's result as ONE term of the launch arguments. The four regions and the three aggregations between them
  compose: with `d₁ = degCol src` and `d₂ = degCol dst`,
    x₀ = scaleRows h d₁,  m₀ = agg x₀,
    x₁ = scaleRows (denseRelu m₀ d₂ W₀ b₀) d₁,  m₁ = agg x₁,
    x₂ = scaleRows (denseRelu m₁ d₂ W₁ b₁) d₁,  m₂ = agg x₂,
    out = denseRelu m₂ d₂ W₂ b₂.
  Each region's output array is its whole-array function of its entry arrays, each entry array is a host function of the
  arguments and of the region before, and the result buffer ends at the last region's output array.
-/
import proofs.«132122_j23003844838151_1_alg».proof.Proof.KerReg0
import proofs.«132122_j23003844838151_1_alg».proof.Proof.KerReg1
import proofs.«132122_j23003844838151_1_alg».proof.Proof.KerReg2
import proofs.«132122_j23003844838151_1_alg».proof.Proof.KerReg3
import proofs.«132122_j23003844838151_1_alg».proof.Proof.KerHost
import proofs.«132122_j23003844838151_1_alg».proof.Proof.KerRun

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen Cert.Gcn

variable (m : (ℓ : Loc nD τ sig) → Buf (Elt Ideal) ℓ) (ρ : Dev nD → PrngReg)

/-- Layer 1's normalised input: the features scaled by the source-side degree column. -/
def layerIn0 (c : Dev nD) : FVec Ideal SNxD .f32 := scaleRows (m ((c.tc : Thread nD τ).loc main_arg0)) (degCol (m ((c.tc : Thread nD τ).loc main_arg1)))
/-- Layer 1's aggregated messages. -/
def msgs0 (c : Dev nD) : FVec Ideal SNxD .f32 := agg (layerIn0 m c) (m ((c.tc : Thread nD τ).loc main_arg1)) (m ((c.tc : Thread nD τ).loc main_arg2))
/-- Layer 1's activations, already scaled for layer 2. -/
def layerIn1 (c : Dev nD) : FVec Ideal SNxD .f32 :=
  scaleRows (denseRelu (msgs0 m c) (degCol (m ((c.tc : Thread nD τ).loc main_arg2))) (m ((c.tc : Thread nD τ).loc main_arg3)) (biasRow (m ((c.tc : Thread nD τ).loc main_arg4)))) (degCol (m ((c.tc : Thread nD τ).loc main_arg1)))
/-- Layer 2's aggregated messages. -/
def msgs1 (c : Dev nD) : FVec Ideal SNxD .f32 := agg (layerIn1 m c) (m ((c.tc : Thread nD τ).loc main_arg1)) (m ((c.tc : Thread nD τ).loc main_arg2))
/-- Layer 2's activations, already scaled for layer 3. -/
def layerIn2 (c : Dev nD) : FVec Ideal SNxD .f32 :=
  scaleRows (denseRelu (msgs1 m c) (degCol (m ((c.tc : Thread nD τ).loc main_arg2))) (m ((c.tc : Thread nD τ).loc main_arg5)) (biasRow (m ((c.tc : Thread nD τ).loc main_arg6)))) (degCol (m ((c.tc : Thread nD τ).loc main_arg1)))
/-- Layer 3's aggregated messages. -/
def msgs2 (c : Dev nD) : FVec Ideal SNxD .f32 := agg (layerIn2 m c) (m ((c.tc : Thread nD τ).loc main_arg1)) (m ((c.tc : Thread nD τ).loc main_arg2))
/-- Layer 3's activations: the result. -/
def result (c : Dev nD) : FVec Ideal SNxD .f32 :=
  denseRelu (msgs2 m c) (degCol (m ((c.tc : Thread nD τ).loc main_arg2))) (m ((c.tc : Thread nD τ).loc main_arg7)) (biasRow (m ((c.tc : Thread nD τ).loc main_arg8)))

/-- Region 0 leaves layer 1's normalised input. -/
theorem exit0 (c : Dev nD) : W6 m ρ c (Proc.devRef .tc main_v15) = layerIn0 m c := by
  refine (W6_arr m ρ c 2).trans ?_
  rw [final0 (V5 m ρ) c, V5_arg0 m ρ c, V5_v11 m ρ c]
  rfl

/-- Region 1 leaves layer 2's normalised input. -/
theorem exit1 (c : Dev nD) : W8 m ρ c (Proc.devRef .tc main_v27) = layerIn1 m c := by
  refine (W8_arr m ρ c 5).trans ?_
  rw [final1 (V7 m ρ) c, V7_v25 m ρ c, V7_v14 m ρ c, V7_arg3 m ρ c, V7_v26 m ρ c, V7_v11 m ρ c, exit0 m ρ c]
  rfl

/-- Region 2 leaves layer 3's normalised input. -/
theorem exit2 (c : Dev nD) : W10 m ρ c (Proc.devRef .tc main_v39) = layerIn2 m c := by
  refine (W10_arr m ρ c 5).trans ?_
  rw [final2 (V9 m ρ) c, V9_v37 m ρ c, V9_v14 m ρ c, V9_arg5 m ρ c, V9_v38 m ρ c, V9_v11 m ρ c, exit1 m ρ c]
  rfl

/-- Region 3 leaves the result. -/
theorem exit3 (c : Dev nD) : W12 m ρ c (Proc.devRef .tc main_v51) = result m c := by
  refine (W12_arr m ρ c 4).trans ?_
  rw [final3 (V11 m ρ) c, V11_v49 m ρ c, V11_v14 m ρ c, V11_arg7 m ρ c, V11_v50 m ρ c, exit2 m ρ c]
  rfl

/-- The kernel program's run at the extended reals: every weakly fair execution terminates, nothing faulting, the result
    array at `result` of the launch arguments, the arguments unchanged. -/
theorem run_value : θ_run (defs (F := Ideal)) (onTc (τ := τ) (main (F := Ideal))) ⟨m, fun _ => 0, ρ⟩ (fun r => ∀ c : Dev nD,
      r.2.mem ((c.tc : Thread nD τ).loc main_v51) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c => ⟨(h c).1.trans (exit3 m ρ c), (h c).2⟩) (run_named (F := Ideal) m ρ)

end Cert.KernelIdeal.Hand

end
-- ==== Proof.RefStages.lean ====
/-
  The reference's stages as the two whole-array functions of a layer: its multiply by the twice-broadcast degree vector is
  `scaleRows` by the degree column, and its `dot_general`, bias add and clamp at zero after that multiply is `denseRelu`
  (the host's `dot_general` is the plain sum over the feature axis on the extended reals).

  Every stage is read entry by entry, at an entry `(node, feature)` of the feature matrix:
  * a degree column `[n, 1]` broadcast along the feature axis is read at `(node, 0)`, whatever the feature;
  * a bias row `[1, 128]` broadcast along the node axis is read at `(0, feature)`, whatever the node;
  * the contraction pairs entry `(node, k)` of its left operand with entry `(k, feature)` of the weight matrix, `k` over the
    feature axis; the left operand being a product with a broadcast degree column, its entry `(node, k)` is the aggregated
    feature at `(node, k)` times the node's own scalar, the same for every `k`;
  * the clamp's zero is the same float word on both sides and is never evaluated.
  No law of arithmetic is used: both sides group the operations the same way.
-/
import proofs.«132122_j23003844838151_1_alg».proof.Proof.Gen.ReferenceIdeal.Read
import proofs.«132122_j23003844838151_1_alg».proof.Proof.Rows
import Idealize.ShloMosaic.Lib.ValueIdx
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal Cert.ReferenceIdeal.Gen Cert.ReferenceIdeal.Read Cert.Gcn

variable (x0 : (⟨S50000x128, .f32⟩ : BufTy).Contents (Elt Ideal)) (x1 x2 : (⟨S800000, .i32⟩ : BufTy).Contents (Elt Ideal))
  (x3 : (⟨S128x128, .f32⟩ : BufTy).Contents (Elt Ideal)) (x4 : (⟨S128, .f32⟩ : BufTy).Contents (Elt Ideal)) (x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S128, .f32⟩ : BufTy).Contents (Elt Ideal))

/-! ## Where each broadcast and each contraction reads

One equation per operation: the entry it reads, written with the coordinates `node i` and `feat i` of the entry `i` being
computed. Each holds coordinate by coordinate. -/

/-- Layer 1's source-side degree column, broadcast along the features, is read at `(node, 0)`. -/
private theorem col12 (i : S50000x128.Idx) : idx_main_v12 i = ix2 (node i) (0 : Fin 1) :=
  funext fun a => Fin.ext (by match a with | ⟨0, _⟩ => rfl | ⟨1, _⟩ => rfl)

/-- Layer 1's contraction reads its left operand at `(node, k)`. -/
private theorem lhs29 (i : S50000x128.Idx) (k : Fin 128) : lidx_main_v29 i k = ix2 (node i) k :=
  funext fun a => Fin.ext (by match a with | ⟨0, _⟩ => rfl | ⟨1, _⟩ => rfl)

/-- Layer 1's contraction reads the weight matrix at `(k, feature)`. -/
private theorem rhs29 (i : S50000x128.Idx) (k : Fin 128) : ridx_main_v29 i k = ix2 k (feat i) :=
  funext fun a => Fin.ext (by match a with | ⟨0, _⟩ => rfl | ⟨1, _⟩ => rfl)

/-- Layer 1's target-side degree column at the contraction's entry `(node, k)` is read at `(node, 0)`: it does not depend on `k`. -/
private theorem col27 (i : S50000x128.Idx) (k : Fin 128) : idx_main_v27 (lidx_main_v29 i k) = ix2 (node i) (0 : Fin 1) :=
  funext fun a => Fin.ext (by match a with | ⟨0, _⟩ => rfl | ⟨1, _⟩ => rfl)

/-- Layer 1's bias row, broadcast along the nodes, is read at `(0, feature)`. -/
private theorem row31 (i : S50000x128.Idx) : idx_main_v31 i = ix2 (0 : Fin 1) (feat i) :=
  funext fun a => Fin.ext (by match a with | ⟨0, _⟩ => rfl | ⟨1, _⟩ => rfl)

/-- Layer 2's source-side degree column is read at `(node, 0)`. -/
private theorem col46 (i : S50000x128.Idx) : idx_main_v46 i = ix2 (node i) (0 : Fin 1) :=
  funext fun a => Fin.ext (by match a with | ⟨0, _⟩ => rfl | ⟨1, _⟩ => rfl)

/-- Layer 2's contraction reads its left operand at `(node, k)`. -/
private theorem lhs63 (i : S50000x128.Idx) (k : Fin 128) : lidx_main_v63 i k = ix2 (node i) k :=
  funext fun a => Fin.ext (by match a with | ⟨0, _⟩ => rfl | ⟨1, _⟩ => rfl)

/-- Layer 2's contraction reads the weight matrix at `(k, feature)`. -/
private theorem rhs63 (i : S50000x128.Idx) (k : Fin 128) : ridx_main_v63 i k = ix2 k (feat i) :=
  funext fun a => Fin.ext (by match a with | ⟨0, _⟩ => rfl | ⟨1, _⟩ => rfl)

/-- Layer 2's target-side degree column at the contraction's entry `(node, k)` is read at `(node, 0)`. -/
private theorem col61 (i : S50000x128.Idx) (k : Fin 128) : idx_main_v61 (lidx_main_v63 i k) = ix2 (node i) (0 : Fin 1) :=
  funext fun a => Fin.ext (by match a with | ⟨0, _⟩ => rfl | ⟨1, _⟩ => rfl)

/-- Layer 2's bias row is read at `(0, feature)`. -/
private theorem row65 (i : S50000x128.Idx) : idx_main_v65 i = ix2 (0 : Fin 1) (feat i) :=
  funext fun a => Fin.ext (by match a with | ⟨0, _⟩ => rfl | ⟨1, _⟩ => rfl)

/-- Layer 3's source-side degree column is read at `(node, 0)`. -/
private theorem col80 (i : S50000x128.Idx) : idx_main_v80 i = ix2 (node i) (0 : Fin 1) :=
  funext fun a => Fin.ext (by match a with | ⟨0, _⟩ => rfl | ⟨1, _⟩ => rfl)

/-- Layer 3's contraction reads its left operand at `(node, k)`. -/
private theorem lhs97 (i : S50000x128.Idx) (k : Fin 128) : lidx_main_v97 i k = ix2 (node i) k :=
  funext fun a => Fin.ext (by match a with | ⟨0, _⟩ => rfl | ⟨1, _⟩ => rfl)

/-- Layer 3's contraction reads the weight matrix at `(k, feature)`. -/
private theorem rhs97 (i : S50000x128.Idx) (k : Fin 128) : ridx_main_v97 i k = ix2 k (feat i) :=
  funext fun a => Fin.ext (by match a with | ⟨0, _⟩ => rfl | ⟨1, _⟩ => rfl)

/-- Layer 3's target-side degree column at the contraction's entry `(node, k)` is read at `(node, 0)`. -/
private theorem col95 (i : S50000x128.Idx) (k : Fin 128) : idx_main_v95 (lidx_main_v97 i k) = ix2 (node i) (0 : Fin 1) :=
  funext fun a => Fin.ext (by match a with | ⟨0, _⟩ => rfl | ⟨1, _⟩ => rfl)

/-- Layer 3's bias row is read at `(0, feature)`. -/
private theorem row99 (i : S50000x128.Idx) : idx_main_v99 i = ix2 (0 : Fin 1) (feat i) :=
  funext fun a => Fin.ext (by match a with | ⟨0, _⟩ => rfl | ⟨1, _⟩ => rfl)

/-! ## The stages -/

/-- Layer 1's source-side normalisation. Entry by entry, the product with the broadcast column is the entry of `x0` times
    its row's own scalar. -/
theorem stage13 : val_main_v13 (F := Ideal) x0 x1 = scaleRows x0 (val_main_v11 (F := Ideal) x1) := by
  funext i
  rw [val_main_v13_apply, val_main_v12_apply, col12, scaleRows_apply]
  rfl

/-- Layer 1's dense part, then layer 2's source-side normalisation. The contraction's summand at `k` is
    `(a (node, k) · d (node, 0)) · w (k, feature)`; to the sum the bias at `(0, feature)` is added, the result clamped below at
    zero and multiplied by the next layer's scalar of the row. -/
theorem stage47 : val_main_v47 (F := Ideal) x0 x1 x2 x3 x4
    = scaleRows (denseRelu (val_main_v23 (F := Ideal) x0 x1 x2) (val_main_v26 (F := Ideal) x2) x3 (val_main_v30 (F := Ideal) x4))
        (val_main_v45 (F := Ideal) x1) := by
  funext i
  have hsum : (∑ k : Fin 128, val_main_v28 (F := Ideal) x0 x1 x2 (lidx_main_v29 i k) * x3 (ridx_main_v29 i k))
      = ∑ k : Fin 128, (val_main_v23 (F := Ideal) x0 x1 x2 (ix2 (node i) k) * val_main_v26 (F := Ideal) x2 (ix2 (node i) (0 : Fin 1)))
          * x3 (ix2 k (feat i)) :=
    Finset.sum_congr rfl fun k _ => by
      rw [val_main_v28_apply, val_main_v27_apply, col27, lhs29, rhs29]
      rfl
  rw [val_main_v47_apply, val_main_v46_apply, val_main_v33_apply, val_main_call2_v0_apply, val_main_call2_cst_apply,
    val_main_v32_apply, val_main_v31_apply, val_main_v29_apply, col46, row31, hsum, scaleRows_apply, denseRelu_apply]
  rfl

/-- Layer 2's dense part, then layer 3's source-side normalisation: the same reading with layer 2's weight matrix, bias
    row and degree columns. -/
theorem stage81 : val_main_v81 (F := Ideal) x0 x1 x2 x3 x4 x5 x6
    = scaleRows (denseRelu (val_main_v57 (F := Ideal) x0 x1 x2 x3 x4) (val_main_v60 (F := Ideal) x2) x5 (val_main_v64 (F := Ideal) x6))
        (val_main_v79 (F := Ideal) x1) := by
  funext i
  have hsum : (∑ k : Fin 128, val_main_v62 (F := Ideal) x0 x1 x2 x3 x4 (lidx_main_v63 i k) * x5 (ridx_main_v63 i k))
      = ∑ k : Fin 128, (val_main_v57 (F := Ideal) x0 x1 x2 x3 x4 (ix2 (node i) k) * val_main_v60 (F := Ideal) x2 (ix2 (node i) (0 : Fin 1)))
          * x5 (ix2 k (feat i)) :=
    Finset.sum_congr rfl fun k _ => by
      rw [val_main_v62_apply, val_main_v61_apply, col61, lhs63, rhs63]
      rfl
  rw [val_main_v81_apply, val_main_v80_apply, val_main_v67_apply, val_main_call5_v0_apply, val_main_call5_cst_apply,
    val_main_v66_apply, val_main_v65_apply, val_main_v63_apply, col80, row65, hsum, scaleRows_apply, denseRelu_apply]
  rfl

/-- Layer 3's dense part: the result. The same reading with layer 3's weight matrix, bias row and degree column, and no
    multiplication after the clamp. -/
theorem stage101 : val_main_v101 (F := Ideal) x0 x1 x2 x3 x4 x5 x6 x7 x8
    = denseRelu (val_main_v91 (F := Ideal) x0 x1 x2 x3 x4 x5 x6) (val_main_v94 (F := Ideal) x2) x7 (val_main_v98 (F := Ideal) x8) := by
  funext i
  have hsum : (∑ k : Fin 128, val_main_v96 (F := Ideal) x0 x1 x2 x3 x4 x5 x6 (lidx_main_v97 i k) * x7 (ridx_main_v97 i k))
      = ∑ k : Fin 128, (val_main_v91 (F := Ideal) x0 x1 x2 x3 x4 x5 x6 (ix2 (node i) k) * val_main_v94 (F := Ideal) x2 (ix2 (node i) (0 : Fin 1)))
          * x7 (ix2 k (feat i)) :=
    Finset.sum_congr rfl fun k _ => by
      rw [val_main_v96_apply, val_main_v95_apply, col95, lhs97, rhs97]
      rfl
  rw [val_main_v101_apply, val_main_call8_v0_apply, val_main_call8_cst_apply, val_main_v100_apply, val_main_v99_apply,
    val_main_v97_apply, row99, hsum, denseRelu_apply]
  rfl

end Cert.ReferenceIdeal.Hand

end
-- ==== Proof.Casts.lean ====
/-
  Two ways of laying a vector out as a matrix with one unit axis agree, entry by entry: reshaping a vector `y` of length
  `n` to a column `[n, 1]` is broadcasting it along a new trailing unit axis (both read `y r` at `(r, 0)`), and reshaping a
  vector `b` of length `d` to a row `[1, d]` is broadcasting it along a new leading unit axis (both read `b j` at `(0, j)`).
-/
import Idealize.ShloMosaic.Lib.ValueIdx
import Idealize.ShloMosaic.Lib.Pipeline.Value

noncomputable section

namespace Cert.Gcn

open Idealize.ShloMosaic Idealize.ShloMosaic.ValueIdx

variable {α : Type}

/-- A vector of length 50000 as a column: the reshape is the broadcast along a trailing unit axis. -/
theorem column_reshape_eq_broadcast (y : (⟨1, ![50000]⟩ : Shape).Idx → α)
    (h : (⟨1, ![50000]⟩ : Shape).ShapeCasts ⟨2, ![50000, 1]⟩)
    (h' : (⟨1, ![50000]⟩ : Shape).BroadcastsInDim ⟨2, ![50000, 1]⟩ (![0] : Fin 1 → Fin 2)) :
    shapeCast ⟨2, ![50000, 1]⟩ y h = broadcastInDim ⟨2, ![50000, 1]⟩ ![0] h' y := by
  funext j
  have hj1 : (j 1).val = 0 := by have := (j 1).isLt; simp at this; omega
  rw [shapeCast_apply y h j (ix1 ⟨(j 0).val, (j 0).isLt⟩) (by
        rw [Shape.rowMajor_val_one, Shape.rowMajor_val_two]
        show (j 0).val = (j 0).val * 1 + (j 1).val
        omega),
    broadcastInDim_apply ![0] h' y j (ix1 ⟨(j 0).val, (j 0).isLt⟩) (fun a => match a with
      | ⟨0, _⟩ => by show (j 0).val = if (50000 : Nat) = 1 then 0 else (j 0).val; rw [if_neg (by decide)])]

/-- A vector of length 128 as a row: the reshape is the broadcast along a leading unit axis. -/
theorem row_reshape_eq_broadcast (b : (⟨1, ![128]⟩ : Shape).Idx → α)
    (h : (⟨1, ![128]⟩ : Shape).ShapeCasts ⟨2, ![1, 128]⟩)
    (h' : (⟨1, ![128]⟩ : Shape).BroadcastsInDim ⟨2, ![1, 128]⟩ (![1] : Fin 1 → Fin 2)) :
    shapeCast ⟨2, ![1, 128]⟩ b h = broadcastInDim ⟨2, ![1, 128]⟩ ![1] h' b := by
  funext j
  have hj0 : (j 0).val = 0 := by have := (j 0).isLt; simp at this; omega
  rw [shapeCast_apply b h j (ix1 ⟨(j 1).val, (j 1).isLt⟩) (by
        rw [Shape.rowMajor_val_one, Shape.rowMajor_val_two]
        show (j 1).val = (j 0).val * 128 + (j 1).val
        omega),
    broadcastInDim_apply ![1] h' b j (ix1 ⟨(j 1).val, (j 1).isLt⟩) (fun a => match a with
      | ⟨0, _⟩ => by show (j 1).val = if (128 : Nat) = 1 then 0 else (j 1).val; rw [if_neg (by decide)])]

end Cert.Gcn

end
-- ==== Proof.Bridge.lean ====
/-
  The reference's result is the kernel program's term. The reference recomputes the two degree vectors in every layer and
  lays them out by broadcasting where the kernel program reshapes; its gather and scatter-add between the layers are the
  kernel program's own host operations. So, layer by layer, the reference's stages are `scaleRows`, `agg` and `denseRelu`
  of the same arguments in the same order.
-/
import proofs.«132122_j23003844838151_1_alg».proof.Proof.RefStages
import proofs.«132122_j23003844838151_1_alg».proof.Proof.KerHost
import proofs.«132122_j23003844838151_1_alg».proof.Proof.Casts

set_option maxRecDepth 16384

noncomputable section

open Idealize.ShloMosaic Idealize.ShloMosaic.TcCoe Idealize.SL.Sem Idealize.ShloMosaic.ValueIdx
open Idealize.ShloMosaic.Pipeline (Dat)

namespace Cert.Proof.Bridge

open Cert.Gcn Cert.ReferenceIdeal.Read Cert.ReferenceIdeal.Hand
open Cert.KernelIdeal.Hand (degCol agg biasRow)

variable (x0 : (⟨Cert.ReferenceIdeal.S50000x128, .f32⟩ : BufTy).Contents (Elt Ideal)) (x1 x2 : (⟨Cert.ReferenceIdeal.S800000, .i32⟩ : BufTy).Contents (Elt Ideal))
  (x3 : (⟨Cert.ReferenceIdeal.S128x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal))
  (x7 : (⟨Cert.ReferenceIdeal.S128x128, .f32⟩ : BufTy).Contents (Elt Ideal)) (x8 : (⟨Cert.ReferenceIdeal.S128, .f32⟩ : BufTy).Contents (Elt Ideal))

/-! ## The degree columns: broadcast along a trailing unit axis in the reference, reshaped in the kernel program -/

/-- Layer 1's source-side degree column. -/
theorem deg_src1 : val_main_v11 (F := Ideal) x1 = degCol x1 :=
  (column_reshape_eq_broadcast (val_main_v10 (F := Ideal) x1) Cert.KernelIdeal.Facts₀.shapeCasts_S50000_S50000x1
    Cert.ReferenceIdeal.Facts₀.bcast_S50000_S50000x1_0).symm.trans rfl
/-- Layer 1's destination-side degree column. -/
theorem deg_dst1 : val_main_v26 (F := Ideal) x2 = degCol x2 :=
  (column_reshape_eq_broadcast (val_main_v25 (F := Ideal) x2) Cert.KernelIdeal.Facts₀.shapeCasts_S50000_S50000x1
    Cert.ReferenceIdeal.Facts₀.bcast_S50000_S50000x1_0).symm.trans rfl
/-- Layer 2's source-side degree column: the same count again. -/
theorem deg_src2 : val_main_v45 (F := Ideal) x1 = degCol x1 :=
  (column_reshape_eq_broadcast (val_main_v44 (F := Ideal) x1) Cert.KernelIdeal.Facts₀.shapeCasts_S50000_S50000x1
    Cert.ReferenceIdeal.Facts₀.bcast_S50000_S50000x1_0).symm.trans rfl
/-- Layer 2's destination-side degree column. -/
theorem deg_dst2 : val_main_v60 (F := Ideal) x2 = degCol x2 :=
  (column_reshape_eq_broadcast (val_main_v59 (F := Ideal) x2) Cert.KernelIdeal.Facts₀.shapeCasts_S50000_S50000x1
    Cert.ReferenceIdeal.Facts₀.bcast_S50000_S50000x1_0).symm.trans rfl
/-- Layer 3's source-side degree column. -/
theorem deg_src3 : val_main_v79 (F := Ideal) x1 = degCol x1 :=
  (column_reshape_eq_broadcast (val_main_v78 (F := Ideal) x1) Cert.KernelIdeal.Facts₀.shapeCasts_S50000_S50000x1
    Cert.ReferenceIdeal.Facts₀.bcast_S50000_S50000x1_0).symm.trans rfl
/-- Layer 3's destination-side degree column. -/
theorem deg_dst3 : val_main_v94 (F := Ideal) x2 = degCol x2 :=
  (column_reshape_eq_broadcast (val_main_v93 (F := Ideal) x2) Cert.KernelIdeal.Facts₀.shapeCasts_S50000_S50000x1
    Cert.ReferenceIdeal.Facts₀.bcast_S50000_S50000x1_0).symm.trans rfl

/-! ## The bias rows -/

/-- Layer 1's bias as a row. -/
theorem bias1 : val_main_v30 (F := Ideal) x4 = biasRow x4 :=
  (row_reshape_eq_broadcast x4 Cert.KernelIdeal.Facts₀.shapeCasts_S128_S1x128 Cert.ReferenceIdeal.Facts₀.bcast_S128_S1x128_1).symm.trans rfl
/-- Layer 2's bias as a row. -/
theorem bias2 : val_main_v64 (F := Ideal) x6 = biasRow x6 :=
  (row_reshape_eq_broadcast x6 Cert.KernelIdeal.Facts₀.shapeCasts_S128_S1x128 Cert.ReferenceIdeal.Facts₀.bcast_S128_S1x128_1).symm.trans rfl
/-- Layer 3's bias as a row. -/
theorem bias3 : val_main_v98 (F := Ideal) x8 = biasRow x8 :=
  (row_reshape_eq_broadcast x8 Cert.KernelIdeal.Facts₀.shapeCasts_S128_S1x128 Cert.ReferenceIdeal.Facts₀.bcast_S128_S1x128_1).symm.trans rfl

/-! ## The aggregations: the same gather and scatter-add on both sides -/

/-- Layer 1's messages. -/
theorem agg1 : val_main_v23 (F := Ideal) x0 x1 x2 = agg (val_main_v13 (F := Ideal) x0 x1) x1 x2 := rfl
/-- Layer 2's messages. -/
theorem agg2 : val_main_v57 (F := Ideal) x0 x1 x2 x3 x4 = agg (val_main_v47 (F := Ideal) x0 x1 x2 x3 x4) x1 x2 := rfl
/-- Layer 3's messages. -/
theorem agg3 : val_main_v91 (F := Ideal) x0 x1 x2 x3 x4 x5 x6 = agg (val_main_v81 (F := Ideal) x0 x1 x2 x3 x4 x5 x6) x1 x2 := rfl

/-- The reference's result, layer by layer. -/
theorem reference_layers : val_main_v101 (F := Ideal) x0 x1 x2 x3 x4 x5 x6 x7 x8
    = denseRelu (agg (scaleRows (denseRelu (agg (scaleRows (denseRelu (agg (scaleRows x0 (degCol x1)) x1 x2)
        (degCol x2) x3 (biasRow x4)) (degCol x1)) x1 x2) (degCol x2) x5 (biasRow x6)) (degCol x1)) x1 x2)
        (degCol x2) x7 (biasRow x8) := by
  rw [stage101, agg3, stage81, agg2, stage47, agg1, stage13,
    deg_dst3, deg_src3, deg_dst2, deg_src2, deg_dst1, deg_src1, bias3, bias2, bias1]

end Cert.Proof.Bridge

end
-- ==== Proof.lean ====
/-
  A three-layer graph convolution with symmetric degree normalisation, as four tiled kernels between host gather and
  scatter-add stretches, against the same network written with array operations.

  With `d₁ = (max (out-degree, 1))^(-1/2)` and `d₂ = (max (in-degree, 1))^(-1/2)` (edge counts by a scatter-add of ones), a layer
  maps node features `x` to `max ((A (x · d₁) · d₂) W + b, 0)`, where `A` gathers rows at the edges' sources and adds them at
  their destinations. The kernel program computes the degrees once, scales the input rows in a first kernel, and fuses each
  layer's dense part (row scaling by `d₂`, the product with `W` on the matrix unit after a cast to bf16, the bias, the clamp at
  zero) with the NEXT layer's row scaling by `d₁` in one kernel per layer, the node axis cut into 25 blocks of 2000 rows; the
  reference recomputes the degrees in every layer. Over the extended reals the casts are the identity and the matrix unit's
  product into a zero accumulator is the host's `dot_general`: the plain sum over the feature axis. Both programs therefore
  compute, with the same grouping of every product and sum,
    `denseRelu (agg (scaleRows (denseRelu (agg (scaleRows (denseRelu (agg (scaleRows h d₁)) d₂ W₀ b₀) d₁)) d₂ W₁ b₁) d₁)) d₂ W₂ b₂`
  — no law of arithmetic is needed beyond reading both matrix products as that sum, and the inputs' finiteness is not used.

  The modules: `Rows` (the two whole-array functions of a layer), `KerPay` (what each kernel stores, at an index),
  `KerReg0` … `KerReg3` (each kernel's output array after its grid: the blocks cover the rows), `KerHost` (the arrays each
  kernel is entered with, as host functions of the arguments and of the kernel before), `KerRun` and `KerValue` (the run,
  with the result array at that term), `RefStages` (the reference's stages as the same two functions), `Casts` and
  `Bridge` (a reshape to a column or a row is the broadcast along the unit axis; the two terms are one).
-/
import proofs.«132122_j23003844838151_1_alg».proof.Defs
import proofs.«132122_j23003844838151_1_alg».proof.Proof.Gen.Kernel
import proofs.«132122_j23003844838151_1_alg».proof.Proof.Gen.Kernel.Frame
import proofs.«132122_j23003844838151_1_alg».proof.Proof.Gen.KernelIdeal
import proofs.«132122_j23003844838151_1_alg».proof.Proof.Gen.KernelIdeal.Frame
import proofs.«132122_j23003844838151_1_alg».proof.Proof.Gen.ReferenceIdeal
import proofs.«132122_j23003844838151_1_alg».proof.Proof.Gen.Pre_finite_inputs
import proofs.«132122_j23003844838151_1_alg».proof.Proof.Gen.ReferenceIdeal.Run
import proofs.«132122_j23003844838151_1_alg».proof.Proof.Gen.ReferenceIdeal.Read
import proofs.«132122_j23003844838151_1_alg».proof.Proof.KerValue
import proofs.«132122_j23003844838151_1_alg».proof.Proof.Bridge

noncomputable section

namespace Cert.Proof

open Idealize.ShloMosaic Idealize.SL.Sem

/-- Over the extended reals the kernel program's result array ends at the layered term of its arguments (the four kernels and
    the aggregations between them, composed) and the reference's at its own composed term of arguments that agree: one term,
    stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Hand.result m c, Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8⟩ := hagree c
  rw [Cert.ReferenceIdeal.Read.val_main_v101_eq, e0, e1, e2, e3, e4, e5, e6, e7, e8]
  exact Cert.Proof.Bridge.reference_layers _ _ _ _ _ _ _ _ _

/-- The three programs run to the end without a fault and leave their arguments as launched (the two kernel programs by the
    frame of their four pipelined kernels, the reference by its run with the result dropped); the idealisation rewrote no
    operation; and the two idealised programs agree. -/
theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
